-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x32x2 : Shape := ⟨4, ![16, 512, 32, 2]⟩
abbrev S4106x128 : Shape := ⟨2, ![4106, 128]⟩
abbrev S_ : Shape := ⟨0, ![]⟩

class Facts : Prop where
  bcast_S_S4106x128 : S_.BroadcastsInDim S4106x128 (![] : Fin 0 → Fin S4106x128.rank)
  reducesTo_S4106x128_S_d0_1 : S4106x128.ReducesTo [0, 1] S_
  h_S_ : 0 < S_.numel

variable [Facts]

def fn {F : FTy → Type} [FloatOps F] (main_arg0 : IVec S16x512x32x2 32) (main_arg1 : FVec F S4106x128 .f32) (main_arg2 : FVec F S4106x128 .f32) (main_arg3 : FVec F S4106x128 .f32) : IVec S_ 1 :=
  let main_v0 : FVec F S4106x128 .f32 := Host.absf main_arg1
  let main_cst : FVec F S_ .f32 := constant S_ .f32 0x7F800000#32
  let main_v1 : FVec F S4106x128 .f32 := broadcastInDim S4106x128 ![] bcast_S_S4106x128 main_cst
  let main_v2 : IVec S4106x128 1 := cmpf .olt main_v0 main_v1
  let main_c : IVec S_ 1 := constantI S_ 1 1#1
  let main_v3 : IVec S_ 1 := (fun x v => Host.reduce IntOp.andi x v reducesTo_S4106x128_S_d0_1 h_S_) main_v2 main_c
  let main_v4 : FVec F S4106x128 .f32 := Host.absf main_arg2
  let main_cst_0 : FVec F S_ .f32 := constant S_ .f32 0x7F800000#32
  let main_v5 : FVec F S4106x128 .f32 := broadcastInDim S4106x128 ![] bcast_S_S4106x128 main_cst_0
  let main_v6 : IVec S4106x128 1 := cmpf .olt main_v4 main_v5
  let main_c_1 : IVec S_ 1 := constantI S_ 1 1#1
  let main_v7 : IVec S_ 1 := (fun x v => Host.reduce IntOp.andi x v reducesTo_S4106x128_S_d0_1 h_S_) main_v6 main_c_1
  let main_v8 : IVec S_ 1 := andi main_v3 main_v7
  let main_v9 : FVec F S4106x128 .f32 := Host.absf main_arg3
  let main_cst_2 : FVec F S_ .f32 := constant S_ .f32 0x7F800000#32
  let main_v10 : FVec F S4106x128 .f32 := broadcastInDim S4106x128 ![] bcast_S_S4106x128 main_cst_2
  let main_v11 : IVec S4106x128 1 := cmpf .olt main_v9 main_v10
  let main_c_3 : IVec S_ 1 := constantI S_ 1 1#1
  let main_v12 : IVec S_ 1 := (fun x v => Host.reduce IntOp.andi x v reducesTo_S4106x128_S_d0_1 h_S_) main_v11 main_c_3
  let main_v13 : IVec S_ 1 := andi main_v8 main_v12
  main_v13
-- ==== Kernel.lean ====
abbrev S16x512x32x2 : Shape := ⟨4, ![16, 512, 32, 2]⟩
abbrev S4106x128 : Shape := ⟨2, ![4106, 128]⟩
abbrev S_ : Shape := ⟨0, ![]⟩
abbrev S4224x128 : Shape := ⟨2, ![4224, 128]⟩
abbrev S4224x64x2 : Shape := ⟨3, ![4224, 64, 2]⟩
abbrev S4224x64 : Shape := ⟨2, ![4224, 64]⟩
abbrev S8448x128 : Shape := ⟨2, ![8448, 128]⟩
abbrev S16x512x32x1 : Shape := ⟨4, ![16, 512, 32, 1]⟩
abbrev S16x512x32 : Shape := ⟨3, ![16, 512, 32]⟩
abbrev S262144x1 : Shape := ⟨2, ![262144, 1]⟩
abbrev S262144x2 : Shape := ⟨2, ![262144, 2]⟩
abbrev S262144x128 : Shape := ⟨2, ![262144, 128]⟩
abbrev S2048x2 : Shape := ⟨2, ![2048, 2]⟩
abbrev S2048x128 : Shape := ⟨2, ![2048, 128]⟩
abbrev S1408x128 : Shape := ⟨2, ![1408, 128]⟩
abbrev S2048x1408 : Shape := ⟨2, ![2048, 1408]⟩
abbrev S2048x1 : Shape := ⟨2, ![2048, 1]⟩
abbrev S16x512x32x128 : Shape := ⟨4, ![16, 512, 32, 128]⟩

abbrev nBuf : Space → Nat
  | .hbm => 68
  | .vmem => 6
  | .smem => 0
  | _ => 0

abbrev bufTy : (tb : Table) → Fin (tcTables nBuf tb) → BufTy
  | .hbm, ⟨0, _⟩ => ⟨S16x512x32x2, .i32⟩
  | .hbm, ⟨1, _⟩ => ⟨S4106x128, .f32⟩
  | .hbm, ⟨2, _⟩ => ⟨S4106x128, .f32⟩
  | .hbm, ⟨3, _⟩ => ⟨S4106x128, .f32⟩
  | .hbm, ⟨4, _⟩ => ⟨S_, .f32⟩
  | .hbm, ⟨5, _⟩ => ⟨S_, .f32⟩
  | .hbm, ⟨6, _⟩ => ⟨S4106x128, .f32⟩
  | .hbm, ⟨7, _⟩ => ⟨S4106x128, .f32⟩
  | .hbm, ⟨8, _⟩ => ⟨S_, .f32⟩
  | .hbm, ⟨9, _⟩ => ⟨S4106x128, .f32⟩
  | .hbm, ⟨10, _⟩ => ⟨S4106x128, .f32⟩
  | .hbm, ⟨11, _⟩ => ⟨S4106x128, .f32⟩
  | .hbm, ⟨12, _⟩ => ⟨S_, .f32⟩
  | .hbm, ⟨13, _⟩ => ⟨S_, .f32⟩
  | .hbm, ⟨14, _⟩ => ⟨S4106x128, .f32⟩
  | .hbm, ⟨15, _⟩ => ⟨S4106x128, .f32⟩
  | .hbm, ⟨16, _⟩ => ⟨S_, .f32⟩
  | .hbm, ⟨17, _⟩ => ⟨S4106x128, .f32⟩
  | .hbm, ⟨18, _⟩ => ⟨S4106x128, .f32⟩
  | .hbm, ⟨19, _⟩ => ⟨S4106x128, .f32⟩
  | .hbm, ⟨20, _⟩ => ⟨S_, .i32⟩
  | .hbm, ⟨21, _⟩ => ⟨S_, .f32⟩
  | .hbm, ⟨22, _⟩ => ⟨S4224x128, .f32⟩
  | .hbm, ⟨23, _⟩ => ⟨S_, .i32⟩
  | .hbm, ⟨24, _⟩ => ⟨S_, .f32⟩
  | .hbm, ⟨25, _⟩ => ⟨S4224x128, .f32⟩
  | .hbm, ⟨26, _⟩ => ⟨S4224x64x2, .f32⟩
  | .hbm, ⟨27, _⟩ => ⟨S_, .f32⟩
  | .hbm, ⟨28, _⟩ => ⟨S4224x64, .f32⟩
  | .hbm, ⟨29, _⟩ => ⟨S4224x64x2, .f32⟩
  | .hbm, ⟨30, _⟩ => ⟨S_, .f32⟩
  | .hbm, ⟨31, _⟩ => ⟨S4224x64, .f32⟩
  | .hbm, ⟨32, _⟩ => ⟨S_, .f32⟩
  | .hbm, ⟨33, _⟩ => ⟨S4224x64, .f32⟩
  | .hbm, ⟨34, _⟩ => ⟨S4224x128, .f32⟩
  | .hbm, ⟨35, _⟩ => ⟨S4224x128, .f32⟩
  | .hbm, ⟨36, _⟩ => ⟨S8448x128, .f32⟩
  | .hbm, ⟨37, _⟩ => ⟨S8448x128, .bf16⟩
  | .hbm, ⟨38, _⟩ => ⟨S8448x128, .f32⟩
  | .hbm, ⟨39, _⟩ => ⟨S8448x128, .f32⟩
  | .hbm, ⟨40, _⟩ => ⟨S8448x128, .bf16⟩
  | .hbm, ⟨41, _⟩ => ⟨S_, .i32⟩
  | .hbm, ⟨42, _⟩ => ⟨S16x512x32x2, .i32⟩
  | .hbm, ⟨43, _⟩ => ⟨S16x512x32x2, .i1⟩
  | .hbm, ⟨44, _⟩ => ⟨S_, .i32⟩
  | .hbm, ⟨45, _⟩ => ⟨S_, .i32⟩
  | .hbm, ⟨46, _⟩ => ⟨S16x512x32x2, .i32⟩
  | .hbm, ⟨47, _⟩ => ⟨S16x512x32x2, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S16x512x32x2, .i32⟩
  | .hbm, ⟨52, _⟩ => ⟨S16x512x32x2, .i32⟩
  | .hbm, ⟨53, _⟩ => ⟨S_, .i32⟩
  | .hbm, ⟨54, _⟩ => ⟨S16x512x32x2, .i32⟩
  | .hbm, ⟨55, _⟩ => ⟨S16x512x32x2, .i32⟩
  | .hbm, ⟨56, _⟩ => ⟨S16x512x32x1, .i32⟩
  | .hbm, ⟨57, _⟩ => ⟨S16x512x32, .i32⟩
  | .hbm, ⟨58, _⟩ => ⟨S262144x1, .i32⟩
  | .hbm, ⟨59, _⟩ => ⟨S16x512x32x1, .i32⟩
  | .hbm, ⟨60, _⟩ => ⟨S16x512x32, .i32⟩
  | .hbm, ⟨61, _⟩ => ⟨S_, .i32⟩
  | .hbm, ⟨62, _⟩ => ⟨S16x512x32, .i32⟩
  | .hbm, ⟨63, _⟩ => ⟨S16x512x32, .i32⟩
  | .hbm, ⟨64, _⟩ => ⟨S262144x1, .i32⟩
  | .hbm, ⟨65, _⟩ => ⟨S262144x2, .i32⟩
  | .hbm, ⟨66, _⟩ => ⟨S262144x128, .f32⟩
  | .hbm, ⟨67, _⟩ => ⟨S16x512x32x128, .f32⟩
  | .local _ .vmem, ⟨0, _⟩ => ⟨S2048x2, .i32⟩
  | .local _ .vmem, ⟨1, _⟩ => ⟨S2048x2, .i32⟩
  | .local _ .vmem, ⟨2, _⟩ => ⟨S8448x128, .bf16⟩
  | .local _ .vmem, ⟨3, _⟩ => ⟨S8448x128, .bf16⟩
  | .local _ .vmem, ⟨4, _⟩ => ⟨S2048x128, .f32⟩
  | .local _ .vmem, ⟨5, _⟩ => ⟨S2048x128, .f32⟩
  | _, _ => ⟨S16x512x32x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_c_3 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_c_8 : Ref sig .tc := ⟨.hbm, 44, rfl⟩
abbrev main_call2_v0 : Ref sig .tc := ⟨.hbm, 45, rfl⟩
abbrev main_call2_v1 : Ref sig .tc := ⟨.hbm, 46, rfl⟩
abbrev main_v28 : Ref sig .tc := ⟨.hbm, 47, rfl⟩
abbrev main_c_9 : Ref sig .tc := ⟨.hbm, 48, rfl⟩
abbrev main_c_10 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![128, 6], ![false, false]⟩

def k0_mult1 (i : grid0.Coords) : BitVec 32 :=
  let arg1 : BitVec 32 := BitVec.ofNat 32 (i 1).val
  let c1408_i32 : BitVec 32 := 1408#32
  let v3 : BitVec 32 := Scalar.muli arg1 c1408_i32
  v3
def k0_off1 (i : grid0.Coords) : Fin 2 → Nat :=
  let arg1 : BitVec 32 := BitVec.ofNat 32 (i 1).val
  let c1408_i32 : BitVec 32 := 1408#32
  let v3 : BitVec 32 := Scalar.muli arg1 c1408_i32
  let v4 : BitVec 32 := v3
  let v5 : Index := Scalar.indexCast v4
  let c0 : Index := 0#32
  ![v5.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v12 : BitVec 1 := Scalar.cmpi .slt arg1 c3_i32
  let v13 : BitVec 32 := Scalar.extui v12
  let c0_i32_2 : BitVec 32 := 0#32
  let v14 : BitVec 1 := Scalar.cmpi .ne v13 c0_i32_2
  v14

def k0_cond3 (i : grid0.Coords) : BitVec 1 :=
  let arg1 : BitVec 32 := BitVec.ofNat 32 (i 1).val
  let c3_i32_3 : BitVec 32 := 3#32
  let v15 : BitVec 1 := Scalar.cmpi .sge arg1 c3_i32_3
  let v16 : BitVec 32 := Scalar.extui v15
  let c0_i32_4 : BitVec 32 := 0#32
  let v17 : BitVec 1 := Scalar.cmpi .ne v16 c0_i32_4
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8448x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8448x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S4106x128_S_d0_1 : S4106x128.ReducesTo [0, 1] S_
  h_S_ : 0 < S_.numel
  bcast_S_S4106x128 : S_.BroadcastsInDim S4106x128 (![] : Fin 0 → Fin S4106x128.rank)
  pads_S4106x128_S4224x128_01180_000 : S4106x128.Pads (![0, 0] : Fin 2 → Nat) ![118, 0] ![0, 0] S4224x128
  shapeCasts_S4224x128_S4224x64x2 : S4224x128.ShapeCasts S4224x64x2
  reducesTo_S4224x64x2_S4224x64_d2 : S4224x64x2.ReducesTo [2] S4224x64
  bcast_S_S4224x64 : S_.BroadcastsInDim S4224x64 (![] : Fin 0 → Fin S4224x64.rank)
  concatenates_S4224x64_S4224x64_S4224x128_d1 : Shape.Concatenates [S4224x64, S4224x64] S4224x128 1
  concatenates_S4224x128_S4224x128_S8448x128_d0 : Shape.Concatenates [S4224x128, S4224x128] S8448x128 0
  bitsLt_bf16_f32 : FTy.bits .bf16 < FTy.bits .f32
  bcast_S_S16x512x32x2 : S_.BroadcastsInDim S16x512x32x2 (![] : Fin 0 → Fin S16x512x32x2.rank)
  slices_S16x512x32x2_S16x512x32x1_0_0_0_0 : S16x512x32x2.Slices ![0, 0, 0, 0] S16x512x32x1
  shapeCasts_S16x512x32x1_S16x512x32 : S16x512x32x1.ShapeCasts S16x512x32
  shapeCasts_S16x512x32_S262144x1 : S16x512x32.ShapeCasts S262144x1
  slices_S16x512x32x2_S16x512x32x1_0_0_0_1 : S16x512x32x2.Slices ![0, 0, 0, 1] S16x512x32x1
  bcast_S_S16x512x32 : S_.BroadcastsInDim S16x512x32 (![] : Fin 0 → Fin S16x512x32.rank)
  concatenates_S262144x1_S262144x1_S262144x2_d1 : Shape.Concatenates [S262144x1, S262144x1] S262144x2 1
  inb_S2048x128_S2048x128_0_0 : ∀ a, (![0, 0] : Fin 2 → Nat) a + S2048x128.size a ≤ S2048x128.size a
  h_S2048x128 : 0 < S2048x128.numel
  h_S1408x128 : 0 < S1408x128.numel
  shapeCasts_S1408x128_S1408x128 : S1408x128.ShapeCasts S1408x128
  iota_S2048x1408_d1_w32 : S2048x1408.Iotas .tc 32 [1]
  inb_S2048x2_S2048x1_0_0 : ∀ a, (![0, 0] : Fin 2 → Nat) a + S2048x1.size a ≤ S2048x2.size a
  h_S2048x1 : 0 < S2048x1.numel
  shapeCasts_S2048x1_S2048x1 : S2048x1.ShapeCasts S2048x1
  broadcasts_S2048x1_S2048x1408 : S2048x1.Broadcasts S2048x1408
  natLt_1_32 : 1 < 32
  shapeCasts_S2048x128_S2048x128 : S2048x128.ShapeCasts S2048x128
  inb_S2048x2_S2048x1_0_1 : ∀ a, (![0, 1] : Fin 2 → Nat) a + S2048x1.size a ≤ S2048x2.size a
  shapeCasts_S262144x128_S16x512x32x128 : S262144x128.ShapeCasts S16x512x32x128
  dot_S2048x1408_S1408x128_S2048x128_1_0_0_1_n_n_wf : DotDims.WF S2048x1408 S1408x128 S2048x128 [1] [0] [0] [1] [] []
  hrank0 : 0 < grid0.rank
  k0_mult1_dvd : ∀ i : grid0.Coords, 1408 ∣ (k0_mult1 i).toNat
  k0_off1_inb : ∀ i : grid0.Coords, ∀ a, (k0_off1 i) a + S1408x128.size a ≤ S8448x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S262144x2.size a
  hwx0_0 : ∀ i : grid0.Coords, EltTy.bits .i32 = 32 ∨ (Rect.block (s := S262144x2) S2048x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8448x128.size a ≤ S8448x128.size a
  hwx0_1 : ∀ i : grid0.Coords, EltTy.bits .bf16 = 32 ∨ (Rect.block (s := S8448x128) S8448x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8448x128.size a ≤ S8448x128.size a
  hwx0_2 : ∀ i : grid0.Coords, EltTy.bits .bf16 = 32 ∨ (Rect.block (s := S8448x128) S8448x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S262144x128.size a
  hwx0_3 : ∀ i : grid0.Coords, EltTy.bits .f32 = 32 ∨ (Rect.block (s := S262144x128) S2048x128.size (cc0_transform_3 i) (hinb0_3 i)).WholeWords (EltTy.packing .f32)

variable [Facts₀]

def dot_S2048x1408_S1408x128_S2048x128_1_0_0_1_n_n : DotDims S2048x1408 S1408x128 S2048x128 where
  lhsContracting := [1]
  rhsContracting := [0]
  lhsNonContracting := [0]
  rhsNonContracting := [1]
  lhsBatch := []
  rhsBatch := []
  wf := dot_S2048x1408_S1408x128_S2048x128_1_0_0_1_n_n_wf

abbrev win0_0 : Pipeline.Window sig grid0 :=
  Pipeline.Window.ofSpec (Memref.whole main_v38) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S8448x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S8448x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S16x512x32x2 : Shape := ⟨4, ![16, 512, 32, 2]⟩
abbrev S4106x128 : Shape := ⟨2, ![4106, 128]⟩
abbrev S_ : Shape := ⟨0, ![]⟩
abbrev S16x512x32x1 : Shape := ⟨4, ![16, 512, 32, 1]⟩
abbrev S16x512x32 : Shape := ⟨3, ![16, 512, 32]⟩
abbrev S16x512x32x128 : Shape := ⟨4, ![16, 512, 32, 128]⟩
abbrev S16x512x32x256 : Shape := ⟨4, ![16, 512, 32, 256]⟩
abbrev S16x512x32x128x2 : Shape := ⟨5, ![16, 512, 32, 128, 2]⟩

abbrev nBuf : Space → Nat
  | .hbm => 53
  | .vmem => 0
  | .smem => 0
  | _ => 0

abbrev bufTy : (tb : Table) → Fin (tcTables nBuf tb) → BufTy
  | .hbm, ⟨0, _⟩ => ⟨S16x512x32x2, .i32⟩
  | .hbm, ⟨1, _⟩ => ⟨S4106x128, .f32⟩
  | .hbm, ⟨2, _⟩ => ⟨S4106x128, .f32⟩
  | .hbm, ⟨3, _⟩ => ⟨S4106x128, .f32⟩
  | .hbm, ⟨4, _⟩ => ⟨S_, .i32⟩
  | .hbm, ⟨5, _⟩ => ⟨S16x512x32x2, .i32⟩
  | .hbm, ⟨6, _⟩ => ⟨S16x512x32x2, .i1⟩
  | .hbm, ⟨7, _⟩ => ⟨S_, .i32⟩
  | .hbm, ⟨8, _⟩ => ⟨S_, .i32⟩
  | .hbm, ⟨9, _⟩ => ⟨S16x512x32x2, .i32⟩
  | .hbm, ⟨10, _⟩ => ⟨S16x512x32x2, .i32⟩
  | .hbm, ⟨11, _⟩ => ⟨S16x512x32x1, .i32⟩
  | .hbm, ⟨12, _⟩ => ⟨S16x512x32, .i32⟩
  | .hbm, ⟨13, _⟩ => ⟨S_, .f32⟩
  | .hbm, ⟨14, _⟩ => ⟨S_, .f32⟩
  | .hbm, ⟨15, _⟩ => ⟨S4106x128, .f32⟩
  | .hbm, ⟨16, _⟩ => ⟨S4106x128, .f32⟩
  | .hbm, ⟨17, _⟩ => ⟨S_, .f32⟩
  | .hbm, ⟨18, _⟩ => ⟨S4106x128, .f32⟩
  | .hbm, ⟨19, _⟩ => ⟨S4106x128, .f32⟩
  | .hbm, ⟨20, _⟩ => ⟨S4106x128, .f32⟩
  | .hbm, ⟨21, _⟩ => ⟨S_, .i32⟩
  | .hbm, ⟨22, _⟩ => ⟨S16x512x32, .i32⟩
  | .hbm, ⟨23, _⟩ => ⟨S16x512x32, .i1⟩
  | .hbm, ⟨24, _⟩ => ⟨S_, .i32⟩
  | .hbm, ⟨25, _⟩ => ⟨S16x512x32, .i32⟩
  | .hbm, ⟨26, _⟩ => ⟨S16x512x32, .i32⟩
  | .hbm, ⟨27, _⟩ => ⟨S16x512x32, .i32⟩
  | .hbm, ⟨28, _⟩ => ⟨S16x512x32x1, .i32⟩
  | .hbm, ⟨29, _⟩ => ⟨S16x512x32x128, .f32⟩
  | .hbm, ⟨30, _⟩ => ⟨S16x512x32x1, .i32⟩
  | .hbm, ⟨31, _⟩ => ⟨S16x512x32, .i32⟩
  | .hbm, ⟨32, _⟩ => ⟨S_, .f32⟩
  | .hbm, ⟨33, _⟩ => ⟨S_, .f32⟩
  | .hbm, ⟨34, _⟩ => ⟨S4106x128, .f32⟩
  | .hbm, ⟨35, _⟩ => ⟨S4106x128, .f32⟩
  | .hbm, ⟨36, _⟩ => ⟨S_, .f32⟩
  | .hbm, ⟨37, _⟩ => ⟨S4106x128, .f32⟩
  | .hbm, ⟨38, _⟩ => ⟨S4106x128, .f32⟩
  | .hbm, ⟨39, _⟩ => ⟨S4106x128, .f32⟩
  | .hbm, ⟨40, _⟩ => ⟨S_, .i32⟩
  | .hbm, ⟨41, _⟩ => ⟨S16x512x32, .i32⟩
  | .hbm, ⟨42, _⟩ => ⟨S16x512x32, .i1⟩
  | .hbm, ⟨43, _⟩ => ⟨S_, .i32⟩
  | .hbm, ⟨44, _⟩ => ⟨S16x512x32, .i32⟩
  | .hbm, ⟨45, _⟩ => ⟨S16x512x32, .i32⟩
  | .hbm, ⟨46, _⟩ => ⟨S16x512x32, .i32⟩
  | .hbm, ⟨47, _⟩ => ⟨S16x512x32x1, .i32⟩
  | .hbm, ⟨48, _⟩ => ⟨S16x512x32x128, .f32⟩
  | .hbm, ⟨49, _⟩ => ⟨S16x512x32x256, .f32⟩
  | .hbm, ⟨50, _⟩ => ⟨S16x512x32x128x2, .f32⟩
  | .hbm, ⟨51, _⟩ => ⟨S_, .f32⟩
  | .hbm, ⟨52, _⟩ => ⟨S16x512x32x128, .f32⟩
  | _, _ => ⟨S16x512x32x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S_S16x512x32x2 : S_.BroadcastsInDim S16x512x32x2 (![] : Fin 0 → Fin S16x512x32x2.rank)
  slices_S16x512x32x2_S16x512x32x1_0_0_0_0 : S16x512x32x2.Slices ![0, 0, 0, 0] S16x512x32x1
  shapeCasts_S16x512x32x1_S16x512x32 : S16x512x32x1.ShapeCasts S16x512x32
  reducesTo_S4106x128_S_d0_1 : S4106x128.ReducesTo [0, 1] S_
  h_S_ : 0 < S_.numel
  bcast_S_S4106x128 : S_.BroadcastsInDim S4106x128 (![] : Fin 0 → Fin S4106x128.rank)
  bcast_S_S16x512x32 : S_.BroadcastsInDim S16x512x32 (![] : Fin 0 → Fin S16x512x32.rank)
  bcast_S16x512x32_S16x512x32x1_0_1_2 : S16x512x32.BroadcastsInDim S16x512x32x1 (![0, 1, 2] : Fin 3 → Fin S16x512x32x1.rank)
  slices_S16x512x32x2_S16x512x32x1_0_0_0_1 : S16x512x32x2.Slices ![0, 0, 0, 1] S16x512x32x1
  concatenates_S16x512x32x128_S16x512x32x128_S16x512x32x256_d3 : Shape.Concatenates [S16x512x32x128, S16x512x32x128] S16x512x32x256 3
  shapeCasts_S16x512x32x256_S16x512x32x128x2 : S16x512x32x256.ShapeCasts S16x512x32x128x2
  reducesTo_S16x512x32x128x2_S16x512x32x128_d4 : S16x512x32x128x2.ReducesTo [4] S16x512x32x128
  gather_S4106x128_S16x512x32x1_S16x512x32x128_3_0_n_n_0_3_1128_wf : GatherDims.WF S4106x128 S16x512x32x1 S16x512x32x128 [3] [0] [] [0] [] 3 ![1, 128]

variable [Facts₀]

def gather_S4106x128_S16x512x32x1_S16x512x32x128_3_0_n_n_0_3_1128 : GatherDims S4106x128 S16x512x32x1 S16x512x32x128 where
  offsetDims := [3]
  collapsedSliceDims := [0]
  operandBatchingDims := []
  startIndicesBatchingDims := []
  startIndexMap := [0]
  indexVectorDim := 3
  sliceSizes := ![1, 128]
  wf := gather_S4106x128_S16x512x32x1_S16x512x32x128_3_0_n_n_0_3_1128_wf

class Facts : Prop extends Facts₀ where

variable [Facts]
-- ==== Proof.BitsCases.lean ====
/-
  The kernel body of the one-hot gather, run once per control case.

  The grid is (i, k) with 128 row tiles i and 6 contraction steps k; the point's number is t = 6 i + k.
  The body has three conditionals on k alone:
    k = 0   : the output block is reset to zero,
    k < 3   : the block accumulates  onehot(col 0 of the index block) · hi-slice  and then the same with the lo-slice,
    3 ≤ k   : the same with column 1 of the index block.
  Exactly one of three assignments of the conditions is met at a point, so the body is run three times:
    case A (k = 0): reset, then accumulate with column 0;
    case B (0 < k < 3): accumulate with column 0 over what the point before left;
    case C (3 ≤ k): accumulate with column 1 over what the point before left.
  Each run is a separation-logic triple on whole staging memrefs whose witness is the list of pieces the
  stores leave in the output's staging buffer.
-/
import proofs.«428704_j21706764714522_3_alg».proof.Proof.Gen.Kernel.Launch
import proofs.«428704_j21706764714522_3_alg».proof.Proof.Gen.Kernel.Skeleton
import proofs.«428704_j21706764714522_3_alg».proof.Proof.Gen.Kernel.Points
import proofs.«428704_j21706764714522_3_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions over the grid, in closed form -/

/-- The reset condition holds exactly at the first contraction step of each row tile. -/
theorem hcond1 : ∀ t : Fin cfg0.N, k0_cond1 (grid0.coords t) = 1#1 ↔ t.val % 6 = 0 :=
  (by decide +kernel : ∀ t : Fin grid0.N, k0_cond1 (grid0.coords t) = 1#1 ↔ t.val % 6 = 0)
/-- The first-half condition holds exactly at contraction steps 0, 1, 2. -/
theorem hcond2 : ∀ t : Fin cfg0.N, k0_cond2 (grid0.coords t) = 1#1 ↔ t.val % 6 < 3 :=
  (by decide +kernel : ∀ t : Fin grid0.N, k0_cond2 (grid0.coords t) = 1#1 ↔ t.val % 6 < 3)
/-- The second-half condition holds exactly at contraction steps 3, 4, 5. -/
theorem hcond3 : ∀ t : Fin cfg0.N, k0_cond3 (grid0.coords t) = 1#1 ↔ 3 ≤ t.val % 6 :=
  (by decide +kernel : ∀ t : Fin grid0.N, k0_cond3 (grid0.coords t) = 1#1 ↔ 3 ≤ t.val % 6)

/-! ## The staging memrefs at a point -/

/-- One staging buffer of the output window, through which its contents are stated. -/
abbrev VO : View sig .tc .vmem S2048x128 .f32 := (Memref.whole cc0_stg3_0 : Memref sig .tc .vmem S2048x128 .f32).view
abbrev ms0 (t : Fin cfg0.N) : Memref sig .tc .vmem S2048x2 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8448x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8448x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .f32 := win0_3.stage (cfg0.slots t 3)
abbrev hs3 (t : Fin cfg0.N) : (ms3 t).IsWhole := hstage0_3 ((cfg0.slots t 3).cast nbuf0_3)

/-! ## The body, case by case -/

set_option maxHeartbeats 1000000 in
/-- Case A (k = 0): from any contents of the output's buffer the body resets it and accumulates the two products
    of the column-0 one-hot; the three input buffers are handed back as found. -/
noncomputable def runA (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : k0_cond1 i = 1#1) (hc2 : k0_cond2 i = 1#1) (hc3 : ¬k0_cond3 i = 1#1)
    (x0 : Vec F S2048x2 .i32) (x1 : Vec F S8448x128 .bf16) (x2 : Vec F S8448x128 .bf16) :
    { L : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0_kernel i arg2 harg2 arg3 harg3 arg4 harg4 arg5 harg5) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- Case B (0 < k < 3): over the running contents `xo` of the output's buffer the body accumulates the two products
    of the column-0 one-hot. -/
noncomputable def runB (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : k0_cond2 i = 1#1) (hc3 : ¬k0_cond3 i = 1#1)
    (x0 : Vec F S2048x2 .i32) (x1 : Vec F S8448x128 .bf16) (x2 : Vec F S8448x128 .bf16) (xo : Vec F S2048x128 .f32) :
    { L : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0_kernel i arg2 harg2 arg3 harg3 arg4 harg4 arg5 harg5) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- Case C (3 ≤ k): over the running contents `xo` of the output's buffer the body accumulates the two products
    of the column-1 one-hot. -/
noncomputable def runC (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : ¬k0_cond2 i = 1#1) (hc3 : k0_cond3 i = 1#1)
    (x0 : Vec F S2048x2 .i32) (x1 : Vec F S8448x128 .bf16) (x2 : Vec F S8448x128 .bf16) (xo : Vec F S2048x128 .f32) :
    { L : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0_kernel i arg2 harg2 arg3 harg3 arg4 harg4 arg5 harg5) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Body

end
-- ==== Proof.BitsFrame.lean ====
/-
  The frame of the one-hot gather kernel: the proof data of its pipeline, the body obligation, the run.

  The output block of row tile i is carried in the output window's staging buffer across the six contraction
  steps k = 0 … 5 of the tile and written back after the last one. What the buffer holds after the body at point
  t = 6 i + k is defined by recursion on the point: case A's contents at k = 0, and case B's (k = 1, 2) or case
  C's (k = 3, 4, 5) over what the point before left. The three input windows are only read, so their buffers hold
  their blocks at every point.
-/
import proofs.«428704_j21706764714522_3_alg».proof.Proof.BitsCases
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's staging buffer -/

/-- Case A's pieces (three whole-block stores) cover the block. -/
theorem coverA (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : k0_cond1 i = 1#1) (hc2 : k0_cond2 i = 1#1) (hc3 : ¬k0_cond3 i = 1#1)
    (x0 : Vec F S2048x2 .i32) (x1 : Vec F S8448x128 .bf16) (x2 : Vec F S8448x128 .bf16) (y : S2048x128.Idx) :
    ∃ pc ∈ (runA c i arg2 harg2 arg3 harg3 arg4 harg4 arg5 harg5 hc1 hc2 hc3 x0 x1 x2).1, y ∈ pc.1.set :=
  View.cover_of_tiledL (runA c i arg2 harg2 arg3 harg3 arg4 harg4 arg5 harg5 hc1 hc2 hc3 x0 x1 x2).1 S2048x128.size (by sl_kernel_rfl) y

/-- What case A leaves in the output's staging buffer: its pieces read back. -/
def outA (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : k0_cond1 i = 1#1) (hc2 : k0_cond2 i = 1#1) (hc3 : ¬k0_cond3 i = 1#1)
    (x0 : Vec F S2048x2 .i32) (x1 : Vec F S8448x128 .bf16) (x2 : Vec F S8448x128 .bf16) : Vec F S2048x128 .f32 :=
  VO.read (Elt F) (VO.writes (Elt F) VO.junk (runA c i arg2 harg2 arg3 harg3 arg4 harg4 arg5 harg5 hc1 hc2 hc3 x0 x1 x2).1)

/-- Case B's pieces (two whole-block stores) cover the block. -/
theorem coverB (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : k0_cond2 i = 1#1) (hc3 : ¬k0_cond3 i = 1#1)
    (x0 : Vec F S2048x2 .i32) (x1 : Vec F S8448x128 .bf16) (x2 : Vec F S8448x128 .bf16) (xo : Vec F S2048x128 .f32) (y : S2048x128.Idx) :
    ∃ pc ∈ (runB c i arg2 harg2 arg3 harg3 arg4 harg4 arg5 harg5 hc1 hc2 hc3 x0 x1 x2 xo).1, y ∈ pc.1.set :=
  View.cover_of_tiledL (runB c i arg2 harg2 arg3 harg3 arg4 harg4 arg5 harg5 hc1 hc2 hc3 x0 x1 x2 xo).1 S2048x128.size (by sl_kernel_rfl) y

/-- What case B leaves in the output's staging buffer over the running contents `xo`. -/
def outB (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : k0_cond2 i = 1#1) (hc3 : ¬k0_cond3 i = 1#1)
    (x0 : Vec F S2048x2 .i32) (x1 : Vec F S8448x128 .bf16) (x2 : Vec F S8448x128 .bf16) (xo : Vec F S2048x128 .f32) : Vec F S2048x128 .f32 :=
  VO.read (Elt F) (VO.writes (Elt F) VO.junk (runB c i arg2 harg2 arg3 harg3 arg4 harg4 arg5 harg5 hc1 hc2 hc3 x0 x1 x2 xo).1)

/-- Case C's pieces (two whole-block stores) cover the block. -/
theorem coverC (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : ¬k0_cond2 i = 1#1) (hc3 : k0_cond3 i = 1#1)
    (x0 : Vec F S2048x2 .i32) (x1 : Vec F S8448x128 .bf16) (x2 : Vec F S8448x128 .bf16) (xo : Vec F S2048x128 .f32) (y : S2048x128.Idx) :
    ∃ pc ∈ (runC c i arg2 harg2 arg3 harg3 arg4 harg4 arg5 harg5 hc1 hc2 hc3 x0 x1 x2 xo).1, y ∈ pc.1.set :=
  View.cover_of_tiledL (runC c i arg2 harg2 arg3 harg3 arg4 harg4 arg5 harg5 hc1 hc2 hc3 x0 x1 x2 xo).1 S2048x128.size (by sl_kernel_rfl) y

/-- What case C leaves in the output's staging buffer over the running contents `xo`. -/
def outC (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : ¬k0_cond2 i = 1#1) (hc3 : k0_cond3 i = 1#1)
    (x0 : Vec F S2048x2 .i32) (x1 : Vec F S8448x128 .bf16) (x2 : Vec F S8448x128 .bf16) (xo : Vec F S2048x128 .f32) : Vec F S2048x128 .f32 :=
  VO.read (Elt F) (VO.writes (Elt F) VO.junk (runC c i arg2 harg2 arg3 harg3 arg4 harg4 arg5 harg5 hc1 hc2 hc3 x0 x1 x2 xo).1)

/-! ## Which case a point is in -/

theorem caseA_c1 (t : Fin cfg0.N) (h : t.val % 6 = 0) : k0_cond1 (grid0.coords t) = 1#1 := (hcond1 t).mpr h
theorem caseA_c2 (t : Fin cfg0.N) (h : t.val % 6 = 0) : k0_cond2 (grid0.coords t) = 1#1 := (hcond2 t).mpr (by omega)
theorem caseA_c3 (t : Fin cfg0.N) (h : t.val % 6 = 0) : ¬k0_cond3 (grid0.coords t) = 1#1 := fun h3 => by have := (hcond3 t).mp h3; omega
theorem caseB_c1 (t : Fin cfg0.N) (h0 : ¬t.val % 6 = 0) : ¬k0_cond1 (grid0.coords t) = 1#1 := fun h1 => h0 ((hcond1 t).mp h1)
theorem caseB_c2 (t : Fin cfg0.N) (h : t.val % 6 < 3) : k0_cond2 (grid0.coords t) = 1#1 := (hcond2 t).mpr h
theorem caseB_c3 (t : Fin cfg0.N) (h : t.val % 6 < 3) : ¬k0_cond3 (grid0.coords t) = 1#1 := fun h3 => by have := (hcond3 t).mp h3; omega
theorem caseC_c2 (t : Fin cfg0.N) (h : ¬t.val % 6 < 3) : ¬k0_cond2 (grid0.coords t) = 1#1 := fun h2 => h ((hcond2 t).mp h2)
theorem caseC_c3 (t : Fin cfg0.N) (h : ¬t.val % 6 < 3) : k0_cond3 (grid0.coords t) = 1#1 := (hcond3 t).mpr (by omega)

/-! ## What the output's buffer holds after each point -/

/-- THE ACCUMULATION: what the output window's staging buffer holds after the body at position `n`. -/
def outsAt (c : Dev nD) : (n : ℕ) → n < cfg0.N → Vec F S2048x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      (caseA_c1 ⟨0, hn⟩ (Nat.zero_mod _)) (caseA_c2 ⟨0, hn⟩ (Nat.zero_mod _)) (caseA_c3 ⟨0, hn⟩ (Nat.zero_mod _))
      (iblk m c 0 ⟨0, hn⟩) (iblk m c 1 ⟨0, hn⟩) (iblk m c 2 ⟨0, hn⟩)
  | n + 1, hn =>
    if h0 : (n + 1) % 6 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (caseA_c1 ⟨n + 1, hn⟩ h0) (caseA_c2 ⟨n + 1, hn⟩ h0) (caseA_c3 ⟨n + 1, hn⟩ h0)
        (iblk m c 0 ⟨n + 1, hn⟩) (iblk m c 1 ⟨n + 1, hn⟩) (iblk m c 2 ⟨n + 1, hn⟩)
    else if h3 : (n + 1) % 6 < 3 then
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (caseB_c1 ⟨n + 1, hn⟩ h0) (caseB_c2 ⟨n + 1, hn⟩ h3) (caseB_c3 ⟨n + 1, hn⟩ h3)
        (iblk m c 0 ⟨n + 1, hn⟩) (iblk m c 1 ⟨n + 1, hn⟩) (iblk m c 2 ⟨n + 1, hn⟩) (outsAt c n (Nat.lt_of_succ_lt hn))
    else
      outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (caseB_c1 ⟨n + 1, hn⟩ h0) (caseC_c2 ⟨n + 1, hn⟩ h3) (caseC_c3 ⟨n + 1, hn⟩ h3)
        (iblk m c 0 ⟨n + 1, hn⟩) (iblk m c 1 ⟨n + 1, hn⟩) (iblk m c 2 ⟨n + 1, hn⟩) (outsAt c n (Nat.lt_of_succ_lt hn))

/-- `outsAt` at a point of case A. -/
theorem outsAt_A (c : Dev nD) (t : Fin cfg0.N) (h0 : t.val % 6 = 0) :
    outsAt m c t.val t.isLt = outA c (grid0.coords t) (ms0 t) (hs0 t) (ms1 t) (hs1 t) (ms2 t) (hs2 t) (ms3 t) (hs3 t)
      (caseA_c1 t h0) (caseA_c2 t h0) (caseA_c3 t h0) (iblk m c 0 t) (iblk m c 1 t) (iblk m c 2 t) := by
  obtain ⟨n, hn⟩ := t
  cases n with
  | zero => exact rfl
  | succ n => exact (dif_pos h0).trans rfl

/-- `outsAt` at a point of case B: over what the point before left. -/
theorem outsAt_B (c : Dev nD) (t : Fin cfg0.N) (h0 : ¬t.val % 6 = 0) (h3 : t.val % 6 < 3) :
    outsAt m c t.val t.isLt = outB c (grid0.coords t) (ms0 t) (hs0 t) (ms1 t) (hs1 t) (ms2 t) (hs2 t) (ms3 t) (hs3 t)
      (caseB_c1 t h0) (caseB_c2 t h3) (caseB_c3 t h3) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_pos h3)).trans rfl

/-- `outsAt` at a point of case C: over what the point before left. -/
theorem outsAt_C (c : Dev nD) (t : Fin cfg0.N) (h0 : ¬t.val % 6 = 0) (h3 : ¬t.val % 6 < 3) :
    outsAt m c t.val t.isLt = outC c (grid0.coords t) (ms0 t) (hs0 t) (ms1 t) (hs1 t) (ms2 t) (hs2 t) (ms3 t) (hs3 t)
      (caseB_c1 t h0) (caseC_c2 t h3) (caseC_c3 t h3) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_neg h3)).trans rfl

/-! ## The pipeline's proof data -/

/-- The proof data of the pipeline on core `c`: the arrays as the region finds them; after the body at point `t`
    each input's buffer at its block and the output's at `outsAt`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The output window is live at every grid point: one of the two accumulating branches is always taken. -/
theorem live3 : ∀ i : grid0.Coords, cfg0.idle 3 i = false := by
  intro i
  have key : ∀ k : Fin 6, (!(Scalar.cmpi .ne (Scalar.extui (Scalar.cmpi .eq (BitVec.ofNat 32 k.val) 0#32)) 0#32 == 1#1)
      && !(Scalar.cmpi .ne (Scalar.extui (Scalar.cmpi .slt (BitVec.ofNat 32 k.val) 3#32)) 0#32 == 1#1)
      && !(Scalar.cmpi .ne (Scalar.extui (Scalar.cmpi .sge (BitVec.ofNat 32 k.val) 3#32)) 0#32 == 1#1)) = false := by decide
  exact key ⟨(i 1).val, (i 1).isLt⟩

/-- At a point that is not the first of its row tile the output's current staging buffer holds what the body left
    at the point before: the buffer was not written back between (it is written back after the tile's last
    step only), and the window is live and uncut. -/
theorem before_3_kept (c : Dev nD) (t : Fin cfg0.N) (h0 : ¬t.val % 6 = 0) (d) :
    (dats m 0 c).before 3 t d = (outsAt m c (t.val - 1) (Nat.lt_of_le_of_lt (Nat.sub_le _ _) t.isLt)) := by
  have hN : t.val < 768 := lt_of_lt_of_eq t.isLt (show cfg0.N = 768 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' memrefs hold their blocks; the closed forms say which case the point is in;
    in cases B and C the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 6 = 0
  · rw [outsAt_A m c t h0]
    unfold outA
    iintro ⟨HΦ, Ho, ⟨%d0, H0⟩, ⟨%d1, H1⟩, ⟨%d2, H2⟩, ⟨%d3, H3⟩⟩
    iapply ((runA c (grid0.coords t) _ _ _ _ _ _ _ _ (caseA_c1 t h0) (caseA_c2 t h0) (caseA_c3 t h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _)
  · by_cases h3 : t.val % 6 < 3
    · rw [outsAt_B m c t h0 h3]
      simp only [before_3_kept m c t h0]
      unfold outB
      iintro ⟨HΦ, Ho, ⟨%d0, H0⟩, ⟨%d1, H1⟩, ⟨%d2, H2⟩, ⟨%d3, H3⟩⟩
      iapply ((runB c (grid0.coords t) _ _ _ _ _ _ _ _ (caseB_c1 t h0) (caseB_c2 t h3) (caseB_c3 t h3) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB c _ _ _ _ _ _ _ _ _ _ _ _ _ _ _ _)
    · rw [outsAt_C m c t h0 h3]
      simp only [before_3_kept m c t h0]
      unfold outC
      iintro ⟨HΦ, Ho, ⟨%d0, H0⟩, ⟨%d1, H1⟩, ⟨%d2, H2⟩, ⟨%d3, H3⟩⟩
      iapply ((runC c (grid0.coords t) _ _ _ _ _ _ _ _ (caseB_c1 t h0) (caseC_c2 t h3) (caseC_c3 t h3) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [show cfg0.idle 3 (cfg0.grid.coords t) = false from live3 (cfg0.grid.coords t)]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.IdealCases.lean ====
/-
  The kernel body of the one-hot gather, run once per control case.

  The grid is (i, k) with 128 row tiles i and 6 contraction steps k; the point's number is t = 6 i + k.
  The body has three conditionals on k alone:
    k = 0   : the output block is reset to zero,
    k < 3   : the block accumulates  onehot(col 0 of the index block) · hi-slice  and then the same with the lo-slice,
    3 ≤ k   : the same with column 1 of the index block.
  Exactly one of three assignments of the conditions is met at a point, so the body is run three times:
    case A (k = 0): reset, then accumulate with column 0;
    case B (0 < k < 3): accumulate with column 0 over what the point before left;
    case C (3 ≤ k): accumulate with column 1 over what the point before left.
  Each run is a separation-logic triple on whole staging memrefs whose witness is the list of pieces the
  stores leave in the output's staging buffer.
-/
import proofs.«428704_j21706764714522_3_alg».proof.Proof.Gen.KernelIdeal.Launch
import proofs.«428704_j21706764714522_3_alg».proof.Proof.Gen.KernelIdeal.Skeleton
import proofs.«428704_j21706764714522_3_alg».proof.Proof.Gen.KernelIdeal.Points
import proofs.«428704_j21706764714522_3_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions over the grid, in closed form -/

/-- The reset condition holds exactly at the first contraction step of each row tile. -/
theorem hcond1 : ∀ t : Fin cfg0.N, k0_cond1 (grid0.coords t) = 1#1 ↔ t.val % 6 = 0 :=
  (by decide +kernel : ∀ t : Fin grid0.N, k0_cond1 (grid0.coords t) = 1#1 ↔ t.val % 6 = 0)
/-- The first-half condition holds exactly at contraction steps 0, 1, 2. -/
theorem hcond2 : ∀ t : Fin cfg0.N, k0_cond2 (grid0.coords t) = 1#1 ↔ t.val % 6 < 3 :=
  (by decide +kernel : ∀ t : Fin grid0.N, k0_cond2 (grid0.coords t) = 1#1 ↔ t.val % 6 < 3)
/-- The second-half condition holds exactly at contraction steps 3, 4, 5. -/
theorem hcond3 : ∀ t : Fin cfg0.N, k0_cond3 (grid0.coords t) = 1#1 ↔ 3 ≤ t.val % 6 :=
  (by decide +kernel : ∀ t : Fin grid0.N, k0_cond3 (grid0.coords t) = 1#1 ↔ 3 ≤ t.val % 6)

/-! ## The staging memrefs at a point -/

/-- One staging buffer of the output window, through which its contents are stated. -/
abbrev VO : View sig .tc .vmem S2048x128 .f32 := (Memref.whole cc0_stg3_0 : Memref sig .tc .vmem S2048x128 .f32).view
abbrev ms0 (t : Fin cfg0.N) : Memref sig .tc .vmem S2048x2 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8448x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8448x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .f32 := win0_3.stage (cfg0.slots t 3)
abbrev hs3 (t : Fin cfg0.N) : (ms3 t).IsWhole := hstage0_3 ((cfg0.slots t 3).cast nbuf0_3)

/-! ## The body, case by case -/

set_option maxHeartbeats 1000000 in
/-- Case A (k = 0): from any contents of the output's buffer the body resets it and accumulates the two products
    of the column-0 one-hot; the three input buffers are handed back as found. -/
noncomputable def runA (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : k0_cond1 i = 1#1) (hc2 : k0_cond2 i = 1#1) (hc3 : ¬k0_cond3 i = 1#1)
    (x0 : Vec F S2048x2 .i32) (x1 : Vec F S8448x128 .bf16) (x2 : Vec F S8448x128 .bf16) :
    { L : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0_kernel i arg2 harg2 arg3 harg3 arg4 harg4 arg5 harg5) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- Case B (0 < k < 3): over the running contents `xo` of the output's buffer the body accumulates the two products
    of the column-0 one-hot. -/
noncomputable def runB (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : k0_cond2 i = 1#1) (hc3 : ¬k0_cond3 i = 1#1)
    (x0 : Vec F S2048x2 .i32) (x1 : Vec F S8448x128 .bf16) (x2 : Vec F S8448x128 .bf16) (xo : Vec F S2048x128 .f32) :
    { L : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0_kernel i arg2 harg2 arg3 harg3 arg4 harg4 arg5 harg5) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- Case C (3 ≤ k): over the running contents `xo` of the output's buffer the body accumulates the two products
    of the column-1 one-hot. -/
noncomputable def runC (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : ¬k0_cond2 i = 1#1) (hc3 : k0_cond3 i = 1#1)
    (x0 : Vec F S2048x2 .i32) (x1 : Vec F S8448x128 .bf16) (x2 : Vec F S8448x128 .bf16) (xo : Vec F S2048x128 .f32) :
    { L : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0_kernel i arg2 harg2 arg3 harg3 arg4 harg4 arg5 harg5) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Body

end
-- ==== Proof.IdealFrame.lean ====
/-
  The frame of the one-hot gather kernel: the proof data of its pipeline, the body obligation, the run.

  The output block of row tile i is carried in the output window's staging buffer across the six contraction
  steps k = 0 … 5 of the tile and written back after the last one. What the buffer holds after the body at point
  t = 6 i + k is defined by recursion on the point: case A's contents at k = 0, and case B's (k = 1, 2) or case
  C's (k = 3, 4, 5) over what the point before left. The three input windows are only read, so their buffers hold
  their blocks at every point.
-/
import proofs.«428704_j21706764714522_3_alg».proof.Proof.IdealCases
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's staging buffer -/

/-- Case A's pieces (three whole-block stores) cover the block. -/
theorem coverA (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : k0_cond1 i = 1#1) (hc2 : k0_cond2 i = 1#1) (hc3 : ¬k0_cond3 i = 1#1)
    (x0 : Vec F S2048x2 .i32) (x1 : Vec F S8448x128 .bf16) (x2 : Vec F S8448x128 .bf16) (y : S2048x128.Idx) :
    ∃ pc ∈ (runA c i arg2 harg2 arg3 harg3 arg4 harg4 arg5 harg5 hc1 hc2 hc3 x0 x1 x2).1, y ∈ pc.1.set :=
  View.cover_of_tiledL (runA c i arg2 harg2 arg3 harg3 arg4 harg4 arg5 harg5 hc1 hc2 hc3 x0 x1 x2).1 S2048x128.size (by sl_kernel_rfl) y

/-- What case A leaves in the output's staging buffer: its pieces read back. -/
def outA (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : k0_cond1 i = 1#1) (hc2 : k0_cond2 i = 1#1) (hc3 : ¬k0_cond3 i = 1#1)
    (x0 : Vec F S2048x2 .i32) (x1 : Vec F S8448x128 .bf16) (x2 : Vec F S8448x128 .bf16) : Vec F S2048x128 .f32 :=
  VO.read (Elt F) (VO.writes (Elt F) VO.junk (runA c i arg2 harg2 arg3 harg3 arg4 harg4 arg5 harg5 hc1 hc2 hc3 x0 x1 x2).1)

/-- Case B's pieces (two whole-block stores) cover the block. -/
theorem coverB (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : k0_cond2 i = 1#1) (hc3 : ¬k0_cond3 i = 1#1)
    (x0 : Vec F S2048x2 .i32) (x1 : Vec F S8448x128 .bf16) (x2 : Vec F S8448x128 .bf16) (xo : Vec F S2048x128 .f32) (y : S2048x128.Idx) :
    ∃ pc ∈ (runB c i arg2 harg2 arg3 harg3 arg4 harg4 arg5 harg5 hc1 hc2 hc3 x0 x1 x2 xo).1, y ∈ pc.1.set :=
  View.cover_of_tiledL (runB c i arg2 harg2 arg3 harg3 arg4 harg4 arg5 harg5 hc1 hc2 hc3 x0 x1 x2 xo).1 S2048x128.size (by sl_kernel_rfl) y

/-- What case B leaves in the output's staging buffer over the running contents `xo`. -/
def outB (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : k0_cond2 i = 1#1) (hc3 : ¬k0_cond3 i = 1#1)
    (x0 : Vec F S2048x2 .i32) (x1 : Vec F S8448x128 .bf16) (x2 : Vec F S8448x128 .bf16) (xo : Vec F S2048x128 .f32) : Vec F S2048x128 .f32 :=
  VO.read (Elt F) (VO.writes (Elt F) VO.junk (runB c i arg2 harg2 arg3 harg3 arg4 harg4 arg5 harg5 hc1 hc2 hc3 x0 x1 x2 xo).1)

/-- Case C's pieces (two whole-block stores) cover the block. -/
theorem coverC (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : ¬k0_cond2 i = 1#1) (hc3 : k0_cond3 i = 1#1)
    (x0 : Vec F S2048x2 .i32) (x1 : Vec F S8448x128 .bf16) (x2 : Vec F S8448x128 .bf16) (xo : Vec F S2048x128 .f32) (y : S2048x128.Idx) :
    ∃ pc ∈ (runC c i arg2 harg2 arg3 harg3 arg4 harg4 arg5 harg5 hc1 hc2 hc3 x0 x1 x2 xo).1, y ∈ pc.1.set :=
  View.cover_of_tiledL (runC c i arg2 harg2 arg3 harg3 arg4 harg4 arg5 harg5 hc1 hc2 hc3 x0 x1 x2 xo).1 S2048x128.size (by sl_kernel_rfl) y

/-- What case C leaves in the output's staging buffer over the running contents `xo`. -/
def outC (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : ¬k0_cond2 i = 1#1) (hc3 : k0_cond3 i = 1#1)
    (x0 : Vec F S2048x2 .i32) (x1 : Vec F S8448x128 .bf16) (x2 : Vec F S8448x128 .bf16) (xo : Vec F S2048x128 .f32) : Vec F S2048x128 .f32 :=
  VO.read (Elt F) (VO.writes (Elt F) VO.junk (runC c i arg2 harg2 arg3 harg3 arg4 harg4 arg5 harg5 hc1 hc2 hc3 x0 x1 x2 xo).1)

/-! ## Which case a point is in -/

theorem caseA_c1 (t : Fin cfg0.N) (h : t.val % 6 = 0) : k0_cond1 (grid0.coords t) = 1#1 := (hcond1 t).mpr h
theorem caseA_c2 (t : Fin cfg0.N) (h : t.val % 6 = 0) : k0_cond2 (grid0.coords t) = 1#1 := (hcond2 t).mpr (by omega)
theorem caseA_c3 (t : Fin cfg0.N) (h : t.val % 6 = 0) : ¬k0_cond3 (grid0.coords t) = 1#1 := fun h3 => by have := (hcond3 t).mp h3; omega
theorem caseB_c1 (t : Fin cfg0.N) (h0 : ¬t.val % 6 = 0) : ¬k0_cond1 (grid0.coords t) = 1#1 := fun h1 => h0 ((hcond1 t).mp h1)
theorem caseB_c2 (t : Fin cfg0.N) (h : t.val % 6 < 3) : k0_cond2 (grid0.coords t) = 1#1 := (hcond2 t).mpr h
theorem caseB_c3 (t : Fin cfg0.N) (h : t.val % 6 < 3) : ¬k0_cond3 (grid0.coords t) = 1#1 := fun h3 => by have := (hcond3 t).mp h3; omega
theorem caseC_c2 (t : Fin cfg0.N) (h : ¬t.val % 6 < 3) : ¬k0_cond2 (grid0.coords t) = 1#1 := fun h2 => h ((hcond2 t).mp h2)
theorem caseC_c3 (t : Fin cfg0.N) (h : ¬t.val % 6 < 3) : k0_cond3 (grid0.coords t) = 1#1 := (hcond3 t).mpr (by omega)

/-! ## What the output's buffer holds after each point -/

/-- THE ACCUMULATION: what the output window's staging buffer holds after the body at position `n`. -/
def outsAt (c : Dev nD) : (n : ℕ) → n < cfg0.N → Vec F S2048x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      (caseA_c1 ⟨0, hn⟩ (Nat.zero_mod _)) (caseA_c2 ⟨0, hn⟩ (Nat.zero_mod _)) (caseA_c3 ⟨0, hn⟩ (Nat.zero_mod _))
      (iblk m c 0 ⟨0, hn⟩) (iblk m c 1 ⟨0, hn⟩) (iblk m c 2 ⟨0, hn⟩)
  | n + 1, hn =>
    if h0 : (n + 1) % 6 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (caseA_c1 ⟨n + 1, hn⟩ h0) (caseA_c2 ⟨n + 1, hn⟩ h0) (caseA_c3 ⟨n + 1, hn⟩ h0)
        (iblk m c 0 ⟨n + 1, hn⟩) (iblk m c 1 ⟨n + 1, hn⟩) (iblk m c 2 ⟨n + 1, hn⟩)
    else if h3 : (n + 1) % 6 < 3 then
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (caseB_c1 ⟨n + 1, hn⟩ h0) (caseB_c2 ⟨n + 1, hn⟩ h3) (caseB_c3 ⟨n + 1, hn⟩ h3)
        (iblk m c 0 ⟨n + 1, hn⟩) (iblk m c 1 ⟨n + 1, hn⟩) (iblk m c 2 ⟨n + 1, hn⟩) (outsAt c n (Nat.lt_of_succ_lt hn))
    else
      outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (caseB_c1 ⟨n + 1, hn⟩ h0) (caseC_c2 ⟨n + 1, hn⟩ h3) (caseC_c3 ⟨n + 1, hn⟩ h3)
        (iblk m c 0 ⟨n + 1, hn⟩) (iblk m c 1 ⟨n + 1, hn⟩) (iblk m c 2 ⟨n + 1, hn⟩) (outsAt c n (Nat.lt_of_succ_lt hn))

/-- `outsAt` at a point of case A. -/
theorem outsAt_A (c : Dev nD) (t : Fin cfg0.N) (h0 : t.val % 6 = 0) :
    outsAt m c t.val t.isLt = outA c (grid0.coords t) (ms0 t) (hs0 t) (ms1 t) (hs1 t) (ms2 t) (hs2 t) (ms3 t) (hs3 t)
      (caseA_c1 t h0) (caseA_c2 t h0) (caseA_c3 t h0) (iblk m c 0 t) (iblk m c 1 t) (iblk m c 2 t) := by
  obtain ⟨n, hn⟩ := t
  cases n with
  | zero => exact rfl
  | succ n => exact (dif_pos h0).trans rfl

/-- `outsAt` at a point of case B: over what the point before left. -/
theorem outsAt_B (c : Dev nD) (t : Fin cfg0.N) (h0 : ¬t.val % 6 = 0) (h3 : t.val % 6 < 3) :
    outsAt m c t.val t.isLt = outB c (grid0.coords t) (ms0 t) (hs0 t) (ms1 t) (hs1 t) (ms2 t) (hs2 t) (ms3 t) (hs3 t)
      (caseB_c1 t h0) (caseB_c2 t h3) (caseB_c3 t h3) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_pos h3)).trans rfl

/-- `outsAt` at a point of case C: over what the point before left. -/
theorem outsAt_C (c : Dev nD) (t : Fin cfg0.N) (h0 : ¬t.val % 6 = 0) (h3 : ¬t.val % 6 < 3) :
    outsAt m c t.val t.isLt = outC c (grid0.coords t) (ms0 t) (hs0 t) (ms1 t) (hs1 t) (ms2 t) (hs2 t) (ms3 t) (hs3 t)
      (caseB_c1 t h0) (caseC_c2 t h3) (caseC_c3 t h3) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_neg h3)).trans rfl

/-! ## The pipeline's proof data -/

/-- The proof data of the pipeline on core `c`: the arrays as the region finds them; after the body at point `t`
    each input's buffer at its block and the output's at `outsAt`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The output window is live at every grid point: one of the two accumulating branches is always taken. -/
theorem live3 : ∀ i : grid0.Coords, cfg0.idle 3 i = false := by
  intro i
  have key : ∀ k : Fin 6, (!(Scalar.cmpi .ne (Scalar.extui (Scalar.cmpi .eq (BitVec.ofNat 32 k.val) 0#32)) 0#32 == 1#1)
      && !(Scalar.cmpi .ne (Scalar.extui (Scalar.cmpi .slt (BitVec.ofNat 32 k.val) 3#32)) 0#32 == 1#1)
      && !(Scalar.cmpi .ne (Scalar.extui (Scalar.cmpi .sge (BitVec.ofNat 32 k.val) 3#32)) 0#32 == 1#1)) = false := by decide
  exact key ⟨(i 1).val, (i 1).isLt⟩

/-- At a point that is not the first of its row tile the output's current staging buffer holds what the body left
    at the point before: the buffer was not written back between (it is written back after the tile's last
    step only), and the window is live and uncut. -/
theorem before_3_kept (c : Dev nD) (t : Fin cfg0.N) (h0 : ¬t.val % 6 = 0) (d) :
    (dats m 0 c).before 3 t d = (outsAt m c (t.val - 1) (Nat.lt_of_le_of_lt (Nat.sub_le _ _) t.isLt)) := by
  have hN : t.val < 768 := lt_of_lt_of_eq t.isLt (show cfg0.N = 768 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' memrefs hold their blocks; the closed forms say which case the point is in;
    in cases B and C the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 6 = 0
  · rw [outsAt_A m c t h0]
    unfold outA
    iintro ⟨HΦ, Ho, ⟨%d0, H0⟩, ⟨%d1, H1⟩, ⟨%d2, H2⟩, ⟨%d3, H3⟩⟩
    iapply ((runA c (grid0.coords t) _ _ _ _ _ _ _ _ (caseA_c1 t h0) (caseA_c2 t h0) (caseA_c3 t h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _)
  · by_cases h3 : t.val % 6 < 3
    · rw [outsAt_B m c t h0 h3]
      simp only [before_3_kept m c t h0]
      unfold outB
      iintro ⟨HΦ, Ho, ⟨%d0, H0⟩, ⟨%d1, H1⟩, ⟨%d2, H2⟩, ⟨%d3, H3⟩⟩
      iapply ((runB c (grid0.coords t) _ _ _ _ _ _ _ _ (caseB_c1 t h0) (caseB_c2 t h3) (caseB_c3 t h3) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB c _ _ _ _ _ _ _ _ _ _ _ _ _ _ _ _)
    · rw [outsAt_C m c t h0 h3]
      simp only [before_3_kept m c t h0]
      unfold outC
      iintro ⟨HΦ, Ho, ⟨%d0, H0⟩, ⟨%d1, H1⟩, ⟨%d2, H2⟩, ⟨%d3, H3⟩⟩
      iapply ((runC c (grid0.coords t) _ _ _ _ _ _ _ _ (caseB_c1 t h0) (caseC_c2 t h3) (caseC_c3 t h3) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [show cfg0.idle 3 (cfg0.grid.coords t) = false from live3 (cfg0.grid.coords t)]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.IdealPieces.lean ====
/-
  What each case of the body leaves in the output's staging buffer, as the body's arithmetic.

  A case's stores are whole-block stores, so the buffer ends at the LAST store's payload; a load of the buffer
  after a store reads that store's payload back, and the first load in cases B and C reads the running contents.
  So: case A leaves  step₂ (step₁ 0),  cases B and C leave  step₂ (step₁ xo)  over the running contents xo, where
  step₁ adds the one-hot product with the head table's slab of the point's contraction step and step₂ the one with
  the residual table's slab; the one-hot is made from column 0 of the index block in cases A and B and from
  column 1 in case C.
-/
import proofs.«428704_j21706764714522_3_alg».proof.Proof.IdealFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The 1408 rows of a table the body loads at the point's contraction step. -/
def slab (i : grid0.Coords) (x : Vec F S8448x128 .bf16) : Vec F S1408x128 .bf16 :=
  View.ld x (Rect.unit (s := S8448x128) (k0_off1 i) S1408x128.size (k0_off1_inb i))

/-- Column 0 of the index block. -/
def col0 (x0 : Vec F S2048x2 .i32) : Vec F S2048x1 .i32 :=
  View.ld x0 (Rect.unit (s := S2048x2) ![0, 0] S2048x1.size inb_S2048x2_S2048x1_0_0)

/-- Column 1 of the index block. -/
def col1 (x0 : Vec F S2048x2 .i32) : Vec F S2048x1 .i32 :=
  View.ld x0 (Rect.unit (s := S2048x2) ![0, 1] S2048x1.size inb_S2048x2_S2048x1_0_1)

theorem hz2 : (![0, 0] : Fin S2048x128.rank → Nat) = fun _ => 0 := by
  funext a; match a with | ⟨0, _⟩ => rfl | ⟨1, _⟩ => rfl

/-- A load of the whole block after a list of stores whose LAST is a whole-block store reads that store's payload. -/
theorem readCov_cons_unit_zero {Val : EltTy → Type} [∀ e, Nonempty (Val e)] {S : Shape} {e : EltTy}
    {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

/-- CASE A leaves the two accumulation steps over the reset value. -/
theorem outA_eq (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : k0_cond1 i = 1#1) (hc2 : k0_cond2 i = 1#1) (hc3 : ¬k0_cond3 i = 1#1)
    (x0 : Vec F S2048x2 .i32) (x1 : Vec F S8448x128 .bf16) (x2 : Vec F S8448x128 .bf16) :
    outA c i arg2 harg2 arg3 harg3 arg4 harg4 arg5 harg5 hc1 hc2 hc3 x0 x1 x2
      = k0_pay6 i (slab i x2) (col0 x0) (k0_pay5 i (slab i x1) (col0 x0) (k0_pay1 (F := F))) := by
  unfold outA
  rw [View.read_writes_eq_canon _ _ _ (coverA c i arg2 harg2 arg3 harg3 arg4 harg4 arg5 harg5 hc1 hc2 hc3 x0 x1 x2)]
  unfold runA
  dsimp only
  sl_unfold_run_names
  rw [View.canon_cons_unit_zero (S := S2048x128) hz2]
  simp only [View.readAt_eq_ld, harg2.read_unread, harg3.read_unread, harg4.read_unread, readCov_cons_unit_zero (S := S2048x128) arg5.view hz2, slab, col0]

/-- CASE B leaves the two accumulation steps over the running contents. -/
theorem outB_eq (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : k0_cond2 i = 1#1) (hc3 : ¬k0_cond3 i = 1#1)
    (x0 : Vec F S2048x2 .i32) (x1 : Vec F S8448x128 .bf16) (x2 : Vec F S8448x128 .bf16) (xo : Vec F S2048x128 .f32) :
    outB c i arg2 harg2 arg3 harg3 arg4 harg4 arg5 harg5 hc1 hc2 hc3 x0 x1 x2 xo
      = k0_pay6 i (slab i x2) (col0 x0) (k0_pay5 i (slab i x1) (col0 x0) xo) := by
  unfold outB
  rw [View.read_writes_eq_canon _ _ _ (coverB c i arg2 harg2 arg3 harg3 arg4 harg4 arg5 harg5 hc1 hc2 hc3 x0 x1 x2 xo)]
  unfold runB
  dsimp only
  sl_unfold_run_names
  rw [View.canon_cons_unit_zero (S := S2048x128) hz2]
  simp only [View.readAt_eq_ld, harg2.read_unread, harg3.read_unread, harg4.read_unread, harg5.read_unread, readCov_cons_unit_zero (S := S2048x128) arg5.view hz2,
    View.ld_unit_zero (S := S2048x128) hz2, slab, col0]

/-- CASE C leaves the two accumulation steps of the second half over the running contents. -/
theorem outC_eq (c : Dev nD) (i : grid0.Coords)
    (arg2 : Memref sig .tc .vmem S2048x2 .i32) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S2048x128 .f32) (harg5 : arg5.IsWhole)
    (hc1 : ¬k0_cond1 i = 1#1) (hc2 : ¬k0_cond2 i = 1#1) (hc3 : k0_cond3 i = 1#1)
    (x0 : Vec F S2048x2 .i32) (x1 : Vec F S8448x128 .bf16) (x2 : Vec F S8448x128 .bf16) (xo : Vec F S2048x128 .f32) :
    outC c i arg2 harg2 arg3 harg3 arg4 harg4 arg5 harg5 hc1 hc2 hc3 x0 x1 x2 xo
      = k0_pay9 i (slab i x2) (col1 x0) (k0_pay8 i (slab i x1) (col1 x0) xo) := by
  unfold outC
  rw [View.read_writes_eq_canon _ _ _ (coverC c i arg2 harg2 arg3 harg3 arg4 harg4 arg5 harg5 hc1 hc2 hc3 x0 x1 x2 xo)]
  unfold runC
  dsimp only
  sl_unfold_run_names
  rw [View.canon_cons_unit_zero (S := S2048x128) hz2]
  simp only [View.readAt_eq_ld, harg2.read_unread, harg3.read_unread, harg4.read_unread, harg5.read_unread, readCov_cons_unit_zero (S := S2048x128) arg5.view hz2,
    View.ld_unit_zero (S := S2048x128) hz2, slab, col1]

end Cert.KernelIdeal.Body

end
-- ==== Proof.IdealBlocks.lean ====
/-
  The windows' blocks and the body's loads, read at an index.

  Point t = 6 a + k of the grid is row tile a, contraction step k. The index window's block at t is rows
  [2048 a, 2048 (a + 1)) of the index array; the two table windows' blocks are the whole tables at every point; the
  output window's block is rows [2048 a, 2048 (a + 1)) of the result. Of a table the body loads the slab of rows
  [1408 k, 1408 (k + 1)), and of the index block one of its two columns.
-/
import proofs.«428704_j21706764714522_3_alg».proof.Proof.IdealPieces
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ)

/-! ## The printed index maps and the step coordinate, decided over the grid -/

theorem index0 : ∀ t : Fin cfg0.N, win0_0.index t (0 : Fin 2) = t.val / 6 ∧ win0_0.index t (1 : Fin 2) = 0 :=
  (by decide +kernel : ∀ t : Fin grid0.N, win0_0.index t (0 : Fin 2) = t.val / 6 ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = t.val / 6 ∧ win0_3.index t (1 : Fin 2) = 0 :=
  (by decide +kernel : ∀ t : Fin grid0.N, win0_3.index t (0 : Fin 2) = t.val / 6 ∧ win0_3.index t (1 : Fin 2) = 0)
/-- The contraction step of point t is t mod 6. -/
theorem step_coord : ∀ t : Fin cfg0.N, ((grid0.coords t) 1).val = t.val % 6 :=
  (by decide +kernel : ∀ t : Fin grid0.N, ((grid0.coords t) 1).val = t.val % 6)

/-! ## The arrays as the region finds them, and the blocks, over literal types -/

abbrev idxArr (c : Dev nD) : Vec F S262144x2 .i32 := V m c main_v38
abbrev hiArr (c : Dev nD) : Vec F S8448x128 .bf16 := V m c main_v22
abbrev loArr (c : Dev nD) : Vec F S8448x128 .bf16 := V m c main_v25
abbrev idxBlk (c : Dev nD) (t : Fin cfg0.N) : Vec F S2048x2 .i32 := iblk m c 0 t
abbrev hiBlk (c : Dev nD) (t : Fin cfg0.N) : Vec F S8448x128 .bf16 := iblk m c 1 t
abbrev loBlk (c : Dev nD) (t : Fin cfg0.N) : Vec F S8448x128 .bf16 := iblk m c 2 t

/-- The index block at point t is rows 2048 (t / 6) + r of the index array. -/
theorem idxBlk_apply (c : Dev nD) (t : Fin cfg0.N) (r : Fin 2048) (col : Fin 2) (hq : 2048 * (t.val / 6) + r.val < 262144) :
    idxBlk m c t (ix2 r col) = idxArr m c (ix2 (⟨2048 * (t.val / 6) + r.val, hq⟩ : Fin 262144) col) := by
  obtain ⟨e0, e1⟩ := index0 t
  show V m c main_v38 (((cfg0.win 0).blk t).view.emb (ix2 r col)) = V m c main_v38 _
  congr 1
  funext a; apply Fin.ext
  match a with
  | ⟨0, _⟩ => show win0_0.index t (0 : Fin 2) * 2048 + 1 * r.val = 2048 * (t.val / 6) + r.val; omega
  | ⟨1, _⟩ => show win0_0.index t (1 : Fin 2) * 2 + 1 * col.val = col.val; omega

/-- The head table's block at any point is the whole head table. -/
theorem hiBlk_eq (c : Dev nD) (t : Fin cfg0.N) : hiBlk m c t = hiArr m c := by
  obtain ⟨e0, e1⟩ := index1 t
  funext y
  show V m c main_v22 (((cfg0.win 1).blk t).view.emb y) = V m c main_v22 y
  congr 1
  funext a; apply Fin.ext
  match a with
  | ⟨0, _⟩ => show win0_1.index t (0 : Fin 2) * 8448 + 1 * (y 0).val = (y 0).val; omega
  | ⟨1, _⟩ => show win0_1.index t (1 : Fin 2) * 128 + 1 * (y 1).val = (y 1).val; omega

/-- The residual table's block at any point is the whole residual table. -/
theorem loBlk_eq (c : Dev nD) (t : Fin cfg0.N) : loBlk m c t = loArr m c := by
  obtain ⟨e0, e1⟩ := index2 t
  funext y
  show V m c main_v25 (((cfg0.win 2).blk t).view.emb y) = V m c main_v25 y
  congr 1
  funext a; apply Fin.ext
  match a with
  | ⟨0, _⟩ => show win0_2.index t (0 : Fin 2) * 8448 + 1 * (y 0).val = (y 0).val; omega
  | ⟨1, _⟩ => show win0_2.index t (1 : Fin 2) * 128 + 1 * (y 1).val = (y 1).val; omega

/-! ## The body's loads at an index -/

/-- Row j of the slab is row 1408 k + j of the table, k the point's contraction step. -/
theorem slab_apply (i : grid0.Coords) (x : Vec F S8448x128 .bf16) (j : Fin 1408) (d : Fin 128) (hq : 1408 * (i 1).val + j.val < 8448) :
    slab i x (ix2 j d) = x (ix2 (⟨1408 * (i 1).val + j.val, hq⟩ : Fin 8448) d) := by
  unfold slab
  show x ((Rect.unit (s := S8448x128) (k0_off1 i) S1408x128.size (k0_off1_inb i)).emb (ix2 j d)) = _
  congr 1
  funext a; apply Fin.ext
  rw [Rect.emb_apply]
  have e := k0_off1_eq i
  match a with
  | ⟨0, _⟩ => show k0_off1 i 0 + 1 * j.val = 1408 * (i 1).val + j.val; rw [e]; show 1408 * (i 1).val + 1 * j.val = _; omega
  | ⟨1, _⟩ => show k0_off1 i 1 + 1 * d.val = d.val; rw [e]; show 0 + 1 * d.val = _; omega

theorem col0_apply (x0 : Vec F S2048x2 .i32) (r : Fin 2048) : col0 x0 (ix2 r (0 : Fin 1)) = x0 (ix2 r (0 : Fin 2)) := by
  unfold col0
  show x0 ((Rect.unit (s := S2048x2) ![0, 0] S2048x1.size inb_S2048x2_S2048x1_0_0).emb (ix2 r (0 : Fin 1))) = _
  congr 1
  funext a; apply Fin.ext
  rw [Rect.emb_apply]
  match a with
  | ⟨0, _⟩ => show 0 + 1 * r.val = r.val; omega
  | ⟨1, _⟩ => show 0 + 1 * 0 = 0; rfl

theorem col1_apply (x0 : Vec F S2048x2 .i32) (r : Fin 2048) : col1 x0 (ix2 r (0 : Fin 1)) = x0 (ix2 r (1 : Fin 2)) := by
  unfold col1
  show x0 ((Rect.unit (s := S2048x2) ![0, 1] S2048x1.size inb_S2048x2_S2048x1_0_1).emb (ix2 r (0 : Fin 1))) = _
  congr 1
  funext a; apply Fin.ext
  rw [Rect.emb_apply]
  match a with
  | ⟨0, _⟩ => show 0 + 1 * r.val = r.val; omega
  | ⟨1, _⟩ => show 1 + 1 * 0 = 1; rfl

end Cert.KernelIdeal.Body

end
-- ==== Proof.Payload.lean ====
/-
  The body's arithmetic at an index, on the extended reals: each accumulation step adds to the running block the
  product of a one-hot row with a table slice, which is a sum over the slice's rows of an indicator times an entry.
-/
import proofs.«428704_j21706764714522_3_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Payload

open Cert.KernelIdeal Cert.KernelIdeal.Gen
open Idealize.ShloMosaic Idealize.ShloMosaic.TcCoe Idealize.ShloMosaic.ValueIdx Idealize.SL.Sem

/-- The one-hot row's entry at position `j` of contraction block `k`, for the index word `w`: one exactly when the
    word, shifted down by the block's offset `1408 k`, is `j`. -/
def hot (w : BitVec 32) (k : ℕ) (j : Fin 1408) : EReal :=
  if BitVec.ofNat 32 j.val = w - BitVec.ofNat 32 k * 1408#32 then 1 else 0

/-- A one-bit word, widened to 32 bits and read as a signed integer, is one when the bit is set and zero otherwise. -/
theorem sitofp_bit (c : Bool) :
    FloatOps.sitofp (F := Ideal) .f32 ((BitVec.ofBool c).setWidth 32) = if c then (1 : EReal) else 0 := by
  cases c
  · show (((0#32 : BitVec 32).toInt : ℝ) : EReal) = 0
    simp
  · show (((1#32 : BitVec 32).toInt : ℝ) : EReal) = 1
    simp

/-- The comparison of the column number with the shifted index word, read as a real, is the indicator `hot`. -/
theorem hot_eq (w : BitVec 32) (k : ℕ) (j : Fin 1408) :
    FloatOps.sitofp (F := Ideal) .f32
        ((IntOp.cmpi .eq (BitVec.ofNat 32 j.val) (IntOp.subi w (Scalar.muli (BitVec.ofNat 32 k) 1408#32))).setWidth 32)
      = hot w k j := by
  unfold IntOp.cmpi IntOp.subi Scalar.muli IntOp.muli hot
  rw [sitofp_bit]
  by_cases h : BitVec.ofNat 32 j.val = w - BitVec.ofNat 32 k * 1408#32
  · rw [if_pos h, if_pos (by simpa using h)]
  · rw [if_neg h, if_neg (by simpa using h)]

/-- The one-hot tile's entry at row `r`, column `j`: the column number is compared with row `r`'s index word shifted
    down by the block's offset; a change of float format is the identity on the extended reals. -/
theorem onehot_apply (i : grid0.Coords) (v18 : Vec Ideal S2048x1 .i32) (r : Fin 2048) (j : Fin 1408) :
    k0_pay4 (F := Ideal) i v18 (ix2 r j) = hot (v18 (ix2 r (0 : Fin 1))) (i 1).val j := by
  unfold k0_pay4
  dsimp only
  rw [truncf_apply, sitofp_apply, extui_apply]
  show FloatOps.sitofp (F := Ideal) .f32 ((IntOp.cmpi .eq (iota .tc S2048x1408 32 [1] iota_S2048x1408_d1_w32 (ix2 r j))
    (broadcastTo S2048x1408 (subi (shapeCast S2048x1 v18 shapeCasts_S2048x1_S2048x1)
      (broadcast S2048x1 (Scalar.muli (BitVec.ofNat 32 (i 1).val) 1408#32))) broadcasts_S2048x1_S2048x1408 (ix2 r j))).setWidth 32) = _
  rw [iota_single_apply, shapeCast_self,
    broadcastTo_apply _ broadcasts_S2048x1_S2048x1408 (ix2 r j) (ix2 r (0 : Fin 1)) (fun a => by
      match a with
      | ⟨0, _⟩ => rfl
      | ⟨1, _⟩ => rfl)]
  exact hot_eq _ _ _

/-- The second half builds the same one-hot tile. -/
theorem onehot'_apply (i : grid0.Coords) (v18 : Vec Ideal S2048x1 .i32) (r : Fin 2048) (j : Fin 1408) :
    k0_pay7 (F := Ideal) i v18 (ix2 r j) = hot (v18 (ix2 r (0 : Fin 1))) (i 1).val j :=
  onehot_apply i v18 r j

/-! The product's operand indices, coordinate by coordinate: the output index `(r, d)` and the contraction position `k`
    read the left operand at `(r, k)` and the right operand at `(k, d)`. -/

theorem lhs_axis0 (j : S2048x128.Idx) (k : dot_S2048x1408_S1408x128_S2048x128_1_0_0_1_n_n.contr.Idx) :
    (dot_S2048x1408_S1408x128_S2048x128_1_0_0_1_n_n.lhsIdx j k 0 : ℕ) = j 0 := by
  simp [DotDims.lhsIdx, dot_S2048x1408_S1408x128_S2048x128_1_0_0_1_n_n]; rfl

theorem lhs_axis1 (j : S2048x128.Idx) (k : dot_S2048x1408_S1408x128_S2048x128_1_0_0_1_n_n.contr.Idx) :
    (dot_S2048x1408_S1408x128_S2048x128_1_0_0_1_n_n.lhsIdx j k 1 : ℕ) = k ⟨0, by decide⟩ :=
  DotDims.lhsIdx_val_of_single _ rfl j k

theorem rhs_axis0 (j : S2048x128.Idx) (k : dot_S2048x1408_S1408x128_S2048x128_1_0_0_1_n_n.contr.Idx) :
    (dot_S2048x1408_S1408x128_S2048x128_1_0_0_1_n_n.rhsIdx j k 0 : ℕ) = k ⟨0, by decide⟩ :=
  DotDims.rhsIdx_val_of_single _ rfl j k

theorem rhs_axis1 (j : S2048x128.Idx) (k : dot_S2048x1408_S1408x128_S2048x128_1_0_0_1_n_n.contr.Idx) :
    (dot_S2048x1408_S1408x128_S2048x128_1_0_0_1_n_n.rhsIdx j k 1 : ℕ) = j 1 := by
  simp [DotDims.rhsIdx, dot_S2048x1408_S1408x128_S2048x128_1_0_0_1_n_n]; rfl

/-- The left operand's index at contraction coordinate `c` is `(r, c)`. -/
theorem lhs_at (r : Fin 2048) (d : Fin 128) (c : Fin 1408) :
    dot_S2048x1408_S1408x128_S2048x128_1_0_0_1_n_n.lhsIdx (ix2 r d)
        ((contrEquiv1 dot_S2048x1408_S1408x128_S2048x128_1_0_0_1_n_n 1408 rfl rfl).symm c) = ix2 r c := by
  funext ax; apply Fin.ext
  match ax with
  | ⟨0, _⟩ => exact lhs_axis0 _ _
  | ⟨1, _⟩ => exact (lhs_axis1 _ _).trans (contrEquiv1_symm_val _ 1408 rfl rfl c)

/-- The right operand's index at contraction coordinate `c` is `(c, d)`. -/
theorem rhs_at (r : Fin 2048) (d : Fin 128) (c : Fin 1408) :
    dot_S2048x1408_S1408x128_S2048x128_1_0_0_1_n_n.rhsIdx (ix2 r d)
        ((contrEquiv1 dot_S2048x1408_S1408x128_S2048x128_1_0_0_1_n_n 1408 rfl rfl).symm c) = ix2 c d := by
  funext ax; apply Fin.ext
  match ax with
  | ⟨0, _⟩ => exact (rhs_axis0 _ _).trans (contrEquiv1_symm_val _ 1408 rfl rfl c)
  | ⟨1, _⟩ => exact rhs_axis1 _ _

/-- One accumulation step at an index: the running block's entry plus the sum, over the slice's rows, of the left
    tile's entry times the slice's entry. The product into the zero block has no accumulator term, and its sum over
    the one contracted axis is a sum over that axis's coordinate. -/
theorem step_apply (acc : FVec Ideal S2048x128 .f32) (oh : FVec Ideal S2048x1408 .bf16) (tab : FVec Ideal S1408x128 .bf16)
    (r : Fin 2048) (d : Fin 128) :
    addf (shapeCast S2048x128 acc shapeCasts_S2048x128_S2048x128)
        (matmul dot_S2048x1408_S1408x128_S2048x128_1_0_0_1_n_n none oh
          (shapeCast S1408x128 tab shapeCasts_S1408x128_S1408x128) (constant (F := Ideal) S2048x128 .f32 0x00000000#32)) (ix2 r d)
      = acc (ix2 r d) + ∑ j : Fin 1408, oh (ix2 r j) * tab (ix2 j d) := by
  rw [addf_apply, shapeCast_self, shapeCast_self]
  refine congrArg (acc (ix2 r d) + ·) ?_
  show FloatOps.matmul dot_S2048x1408_S1408x128_S2048x128_1_0_0_1_n_n none oh tab
      (constant (F := Ideal) S2048x128 .f32 0x00000000#32) (ix2 r d) = _
  rw [Ideal.matmul_constant_zero_apply,
    ← Equiv.sum_comp (contrEquiv1 dot_S2048x1408_S1408x128_S2048x128_1_0_0_1_n_n 1408 rfl rfl).symm]
  refine Finset.sum_congr rfl fun c _ => ?_
  rw [lhs_at, rhs_at]

/-- The reset value is zero everywhere. -/
theorem pay1_apply (r : Fin 2048) (d : Fin 128) : k0_pay1 (F := Ideal) (ix2 r d) = 0 := by
  unfold k0_pay1
  show Ideal.ofBits .f32 0x00000000#32 = 0
  exact Ideal.ofBits_zero_f32

/-- First accumulation of the first half: the running block plus the one-hot row times the head slice. -/
theorem pay5_apply (i : grid0.Coords) (v6 : Vec Ideal S1408x128 .bf16) (v18 : Vec Ideal S2048x1 .i32) (v27 : Vec Ideal S2048x128 .f32)
    (r : Fin 2048) (d : Fin 128) :
    k0_pay5 (F := Ideal) i v6 v18 v27 (ix2 r d)
      = v27 (ix2 r d) + ∑ j : Fin 1408, hot (v18 (ix2 r (0 : Fin 1))) (i 1).val j * v6 (ix2 j d) := by
  unfold k0_pay5 k0_pay2
  dsimp only
  refine (step_apply v27 (k0_pay4 i v18) v6 r d).trans ?_
  refine congrArg (v27 (ix2 r d) + ·) (Finset.sum_congr rfl fun j _ => ?_)
  rw [onehot_apply]

/-- Second accumulation of the first half: the same with the residual slice. -/
theorem pay6_apply (i : grid0.Coords) (v9 : Vec Ideal S1408x128 .bf16) (v18 : Vec Ideal S2048x1 .i32) (v32 : Vec Ideal S2048x128 .f32)
    (r : Fin 2048) (d : Fin 128) :
    k0_pay6 (F := Ideal) i v9 v18 v32 (ix2 r d)
      = v32 (ix2 r d) + ∑ j : Fin 1408, hot (v18 (ix2 r (0 : Fin 1))) (i 1).val j * v9 (ix2 j d) := by
  unfold k0_pay6 k0_pay3
  dsimp only
  refine (step_apply v32 (k0_pay4 i v18) v9 r d).trans ?_
  refine congrArg (v32 (ix2 r d) + ·) (Finset.sum_congr rfl fun j _ => ?_)
  rw [onehot_apply]

/-- First accumulation of the second half. -/
theorem pay8_apply (i : grid0.Coords) (v6 : Vec Ideal S1408x128 .bf16) (v18 : Vec Ideal S2048x1 .i32) (v27 : Vec Ideal S2048x128 .f32)
    (r : Fin 2048) (d : Fin 128) :
    k0_pay8 (F := Ideal) i v6 v18 v27 (ix2 r d)
      = v27 (ix2 r d) + ∑ j : Fin 1408, hot (v18 (ix2 r (0 : Fin 1))) (i 1).val j * v6 (ix2 j d) := by
  unfold k0_pay8 k0_pay2
  dsimp only
  refine (step_apply v27 (k0_pay7 i v18) v6 r d).trans ?_
  refine congrArg (v27 (ix2 r d) + ·) (Finset.sum_congr rfl fun j _ => ?_)
  rw [onehot'_apply]

/-- Second accumulation of the second half. -/
theorem pay9_apply (i : grid0.Coords) (v9 : Vec Ideal S1408x128 .bf16) (v18 : Vec Ideal S2048x1 .i32) (v32 : Vec Ideal S2048x128 .f32)
    (r : Fin 2048) (d : Fin 128) :
    k0_pay9 (F := Ideal) i v9 v18 v32 (ix2 r d)
      = v32 (ix2 r d) + ∑ j : Fin 1408, hot (v18 (ix2 r (0 : Fin 1))) (i 1).val j * v9 (ix2 j d) := by
  unfold k0_pay9 k0_pay3
  dsimp only
  refine (step_apply v32 (k0_pay7 i v18) v9 r d).trans ?_
  refine congrArg (v32 (ix2 r d) + ·) (Finset.sum_congr rfl fun j _ => ?_)
  rw [onehot'_apply]

end Cert.KernelIdeal.Payload

end
-- ==== Proof.LibOneHot.lean ====
/-
  One-hot selection as a sum, on the extended reals.

  A row lookup written as a product with a one-hot row: the sum over a finite index set of an indicator of ONE
  index times a function is the function at that index, and the sum against an indicator that holds nowhere is
  zero — with no finiteness needed, because on the extended reals `0 · x = 0` and `1 · x = x` for every `x`,
  infinities included. Beside it: when a machine word `w` below the table's length is shifted down by a block
  offset `1408 k`, the shifted word equals a position `j` of the block exactly when `w` is row `j` of block `k`;
  and a value recombined from a head and a residual, `x + (x − x)`, is `x` unless `x` is `+∞`.
-/
import Mathlib.Data.EReal.Operations
import Mathlib.Algebra.BigOperators.Group.Finset.Basic

namespace Cert.OneHot

open Finset

/-- A sum against the indicator of exactly one index is the entry there. -/
theorem sum_indicator_mul_eq {ι : Type} [Fintype ι] [DecidableEq ι] (j0 : ι) (H : ι → EReal)
    (P : ι → Prop) [DecidablePred P] (hP : ∀ j, P j ↔ j = j0) :
    (∑ j, (if P j then (1 : EReal) else 0) * H j) = H j0 := by
  rw [Finset.sum_eq_single j0]
  · rw [if_pos ((hP j0).mpr rfl), one_mul]
  · intro j _ hj
    rw [if_neg (fun h => hj ((hP j).mp h)), zero_mul]
  · intro h; exact absurd (Finset.mem_univ j0) h

/-- A sum against an indicator that holds nowhere is zero. -/
theorem sum_indicator_mul_none {ι : Type} [Fintype ι] (H : ι → EReal)
    (P : ι → Prop) [DecidablePred P] (hP : ∀ j, ¬P j) :
    (∑ j, (if P j then (1 : EReal) else 0) * H j) = 0 := by
  apply Finset.sum_eq_zero
  intro j _
  rw [if_neg (hP j), zero_mul]

/-- A word below 8448 shifted down by `1408 k` (`k < 6`) is position `j < 1408` exactly when it is row `j` of block `k`. -/
theorem ofNat_eq_sub_iff (w : BitVec 32) (k j : ℕ) (hw : w.toNat < 8448) (hk : k < 6) (hj : j < 1408) :
    BitVec.ofNat 32 j = w - BitVec.ofNat 32 k * 1408#32 ↔ w.toNat = 1408 * k + j := by
  rw [← BitVec.toNat_inj]
  simp only [BitVec.toNat_sub, BitVec.toNat_mul, BitVec.toNat_ofNat]
  omega

/-- A value recombined from itself and its own residual is itself, unless it is `+∞`. -/
theorem add_sub_self_of_ne_top {x : EReal} (h : x ≠ ⊤) : x + (x - x) = x := by
  induction x using EReal.rec with
  | bot => exact EReal.bot_add _
  | coe r =>
    rw [← EReal.coe_sub, sub_self, EReal.coe_zero, add_zero]
  | top => exact absurd rfl h

/-- Zero has no residual. -/
theorem zero_sub_zero : (0 : EReal) - 0 = 0 := by simp

end Cert.OneHot
-- ==== Proof.AccMath.lean ====
/-
  The six accumulation steps of one output element, in closed form.

  One output element accumulates, over contraction steps k = 0 … 5, the one-hot product of an index word with rows
  [1408 k, 1408 (k + 1)) of a column of the head table and of the residual table; steps 0, 1, 2 use the first index
  word, steps 3, 4, 5 the second. A step's product is the table entry at the word when the word lies in the step's
  row range and zero otherwise; so with the first word below 4224 and the second in [4224, 8448) exactly one step of
  each half contributes, and the total is the sum of the four entries the two words name. A table entry recombined
  from its head and its residual, `x + (x − x)`, is `x` unless `x = +∞`.
-/
import proofs.«428704_j21706764714522_3_alg».proof.Proof.LibOneHot
import proofs.«428704_j21706764714522_3_alg».proof.Proof.Payload
import Mathlib.Data.EReal.Operations
import Mathlib.Algebra.BigOperators.Group.Finset.Basic
import Mathlib.Algebra.BigOperators.Intervals
import Mathlib.Algebra.BigOperators.Fin

noncomputable section

namespace Cert.KernelIdeal.AccMath

open Cert.KernelIdeal.Payload (hot)
open Finset

/-- One step's product: the one-hot row of word `w` at step `k` against rows `1408 k + j` of a column `T`. -/
def term (T : ℕ → EReal) (w : BitVec 32) (k : ℕ) : EReal :=
  ∑ j : Fin 1408, hot w k j * T (1408 * k + j.val)

/-- A step's product is the column's entry at the word when the word lies in the step's row range, else zero. -/
theorem term_eq (T : ℕ → EReal) (w : BitVec 32) (k : ℕ) (hw : w.toNat < 8448) (hk : k < 6) :
    term T w k = if w.toNat / 1408 = k then T w.toNat else 0 := by
  unfold term hot
  by_cases hq : w.toNat / 1408 = k
  · rw [if_pos hq]
    have hj0 : w.toNat % 1408 < 1408 := Nat.mod_lt _ (by norm_num)
    refine (Cert.OneHot.sum_indicator_mul_eq (⟨w.toNat % 1408, hj0⟩ : Fin 1408) (fun j => T (1408 * k + j.val))
      (fun j => BitVec.ofNat 32 j.val = w - BitVec.ofNat 32 k * 1408#32) (fun j => ?_)).trans ?_
    · rw [Cert.OneHot.ofNat_eq_sub_iff w k j.val hw hk j.isLt]
      constructor
      · intro h
        apply Fin.ext
        show j.val = w.toNat % 1408
        omega
      · intro h
        have hv : j.val = w.toNat % 1408 := congrArg Fin.val h
        omega
    · show T (1408 * k + w.toNat % 1408) = T w.toNat
      congr 1
      omega
  · rw [if_neg hq]
    refine Cert.OneHot.sum_indicator_mul_none (fun j : Fin 1408 => T (1408 * k + j.val))
      (fun j => BitVec.ofNat 32 j.val = w - BitVec.ofNat 32 k * 1408#32) (fun j h => ?_)
    rw [Cert.OneHot.ofNat_eq_sub_iff w k j.val hw hk j.isLt] at h
    have := j.isLt
    omega

/-- The word a step uses: the first word in the first three steps, the second in the last three. -/
def wordAt (wx wy : BitVec 32) (k : ℕ) : BitVec 32 := if k < 3 then wx else wy

/-- THE TOTAL over the six steps: the head and residual entries at the two words. -/
theorem total (H L : ℕ → EReal) (wx wy : BitVec 32) (hx : wx.toNat < 4224) (hy1 : 4224 ≤ wy.toNat) (hy2 : wy.toNat < 8448) :
    (∑ k ∈ Finset.range 6, (term H (wordAt wx wy k) k + term L (wordAt wx wy k) k))
      = (H wx.toNat + L wx.toNat) + (H wy.toNat + L wy.toNat) := by
  have hx' : wx.toNat < 8448 := by omega
  have e0 : wordAt wx wy 0 = wx := if_pos (by norm_num)
  have e1 : wordAt wx wy 1 = wx := if_pos (by norm_num)
  have e2 : wordAt wx wy 2 = wx := if_pos (by norm_num)
  have e3 : wordAt wx wy 3 = wy := if_neg (by norm_num)
  have e4 : wordAt wx wy 4 = wy := if_neg (by norm_num)
  have e5 : wordAt wx wy 5 = wy := if_neg (by norm_num)
  simp only [Finset.sum_range_succ, Finset.sum_range_zero, zero_add, e0, e1, e2, e3, e4, e5]
  rw [term_eq H wx 0 hx' (by norm_num), term_eq L wx 0 hx' (by norm_num),
    term_eq H wx 1 hx' (by norm_num), term_eq L wx 1 hx' (by norm_num),
    term_eq H wx 2 hx' (by norm_num), term_eq L wx 2 hx' (by norm_num),
    term_eq H wy 3 hy2 (by norm_num), term_eq L wy 3 hy2 (by norm_num),
    term_eq H wy 4 hy2 (by norm_num), term_eq L wy 4 hy2 (by norm_num),
    term_eq H wy 5 hy2 (by norm_num), term_eq L wy 5 hy2 (by norm_num)]
  obtain hqx | hqx | hqx : wx.toNat / 1408 = 0 ∨ wx.toNat / 1408 = 1 ∨ wx.toNat / 1408 = 2 := by omega
  all_goals
    obtain hqy | hqy | hqy : wy.toNat / 1408 = 3 ∨ wy.toNat / 1408 = 4 ∨ wy.toNat / 1408 = 5 := by omega
  all_goals simp [hqx, hqy]

/-- Where the second half's entries vanish, the total is the first half's entry (unless it is `+∞`). -/
theorem combine_left {X : EReal} (hX : X ≠ ⊤) : (X + (X - X)) + ((0 : EReal) + (0 - 0)) = X := by
  rw [Cert.OneHot.add_sub_self_of_ne_top hX, Cert.OneHot.zero_sub_zero, add_zero, add_zero]

/-- Where the first half's entries vanish, the total is the second half's entry (unless it is `+∞`). -/
theorem combine_right {Y : EReal} (hY : Y ≠ ⊤) : ((0 : EReal) + (0 - 0)) + (Y + (Y - Y)) = Y := by
  rw [Cert.OneHot.zero_sub_zero, add_zero, zero_add, Cert.OneHot.add_sub_self_of_ne_top hY]

/-- A sum from zero of two values other than `+∞` is not `+∞`. -/
theorem zero_add_sum2_ne_top (f : Fin 2 → EReal) (h : ∀ k, f k ≠ ⊤) : (0 : EReal) + ∑ k : Fin 2, f k ≠ ⊤ := by
  rw [zero_add, Fin.sum_univ_two]
  exact EReal.add_ne_top (h 0) (h 1)

end Cert.KernelIdeal.AccMath

end
-- ==== Proof.IdealAcc.lean ====
/-
  What the output's staging buffer holds after each grid point, as a partial sum.

  After point t = 6 a + k the buffer's element (r, d) is the sum over the contraction steps 0 … k of the tile of the
  step's two one-hot products (with the head and with the residual table), the one-hot made from the first index
  word of query row 2048 a + r in steps 0, 1, 2 and from its second word in steps 3, 4, 5. By induction on the point:
  the tile's first point resets and adds step 0; every later point adds its step to what the point before left.
-/
import proofs.«428704_j21706764714522_3_alg».proof.Proof.IdealBlocks
import proofs.«428704_j21706764714522_3_alg».proof.Proof.Payload
import proofs.«428704_j21706764714522_3_alg».proof.Proof.AccMath
import Idealize.ShloMosaic.Lib.ValueIdx

set_option maxRecDepth 16384

noncomputable section

namespace Cert.KernelIdeal.KValue

open Cert.KernelIdeal Cert.KernelIdeal.Gen Cert.KernelIdeal.Body Cert.KernelIdeal.Payload Cert.KernelIdeal.AccMath
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- A column of a table as a function of the row number (zero past the table's end). -/
def colFn (x : Vec Ideal S8448x128 .bf16) (d : Fin 128) : ℕ → EReal :=
  fun n => if h : n < 8448 then x (ix2 (⟨n, h⟩ : Fin 8448) d) else 0

/-- The first and the second index word of query row q. -/
abbrev wx (c : Dev nD) (q : Fin 262144) : BitVec 32 := idxArr m c (ix2 q (0 : Fin 2))
abbrev wy (c : Dev nD) (q : Fin 262144) : BitVec 32 := idxArr m c (ix2 q (1 : Fin 2))

/-- The two products of contraction step k for query row q and column d. -/
def stepTerm (c : Dev nD) (q : Fin 262144) (d : Fin 128) (k : ℕ) : EReal :=
  term (colFn (hiArr m c) d) (wordAt (wx m c q) (wy m c q) k) k + term (colFn (loArr m c) d) (wordAt (wx m c q) (wy m c q) k) k

/-- The sum of the first n steps. -/
def part (c : Dev nD) (q : Fin 262144) (d : Fin 128) (n : ℕ) : EReal :=
  ∑ k ∈ Finset.range n, stepTerm m c q d k

/-- The body's one-hot product with a table's slab is the step's term over the table's column. -/
theorem hotsum_eq_term (i : grid0.Coords) (x : Vec Ideal S8448x128 .bf16) (w : BitVec 32) (d : Fin 128) :
    (∑ j : Fin 1408, hot w (i 1).val j * slab i x (ix2 j d)) = term (colFn x d) w (i 1).val := by
  unfold term
  refine Finset.sum_congr rfl fun j _ => ?_
  have hk : (i 1).val < 6 := (i 1).isLt
  have hq : 1408 * (i 1).val + j.val < 8448 := by have := j.isLt; omega
  rw [slab_apply i x j d hq]
  unfold colFn
  rw [dif_pos hq]

/-- One accumulation pair (head, then residual) of the first half at an element. -/
theorem pair0_apply (i : grid0.Coords) (x0 : Vec Ideal S2048x2 .i32) (x1 x2 : Vec Ideal S8448x128 .bf16) (xo : Vec Ideal S2048x128 .f32)
    (r : Fin 2048) (d : Fin 128) :
    k0_pay6 (F := Ideal) i (slab i x2) (col0 x0) (k0_pay5 (F := Ideal) i (slab i x1) (col0 x0) xo) (ix2 r d)
      = (xo (ix2 r d) + term (colFn x1 d) (x0 (ix2 r (0 : Fin 2))) (i 1).val) + term (colFn x2 d) (x0 (ix2 r (0 : Fin 2))) (i 1).val := by
  refine (pay6_apply i (slab i x2) (col0 x0) _ r d).trans ?_
  rw [pay5_apply i (slab i x1) (col0 x0) xo r d, col0_apply, hotsum_eq_term, hotsum_eq_term]

/-- One accumulation pair of the second half at an element. -/
theorem pair1_apply (i : grid0.Coords) (x0 : Vec Ideal S2048x2 .i32) (x1 x2 : Vec Ideal S8448x128 .bf16) (xo : Vec Ideal S2048x128 .f32)
    (r : Fin 2048) (d : Fin 128) :
    k0_pay9 (F := Ideal) i (slab i x2) (col1 x0) (k0_pay8 (F := Ideal) i (slab i x1) (col1 x0) xo) (ix2 r d)
      = (xo (ix2 r d) + term (colFn x1 d) (x0 (ix2 r (1 : Fin 2))) (i 1).val) + term (colFn x2 d) (x0 (ix2 r (1 : Fin 2))) (i 1).val := by
  refine (pay9_apply i (slab i x2) (col1 x0) _ r d).trans ?_
  rw [pay8_apply i (slab i x1) (col1 x0) xo r d, col1_apply, hotsum_eq_term, hotsum_eq_term]

/-- THE INVARIANT: after point n the output buffer's element (r, d) is the sum of the tile's steps 0 … n mod 6. -/
theorem outsAt_apply (c : Dev nD) : ∀ (n : ℕ) (h : n < cfg0.N) (r : Fin 2048) (d : Fin 128) (hq : 2048 * (n / 6) + r.val < 262144),
    outsAt m c n h (ix2 r d) = part m c (⟨2048 * (n / 6) + r.val, hq⟩ : Fin 262144) d (n % 6 + 1) := by
  intro n
  induction n with
  | zero =>
    intro h r d hq
    have e := outsAt_A m c ⟨0, h⟩ (Nat.zero_mod _)
    rw [show outsAt m c 0 h = outsAt m c (⟨0, h⟩ : Fin cfg0.N).val (⟨0, h⟩ : Fin cfg0.N).isLt from rfl, e, outA_eq]
    refine (pair0_apply (grid0.coords ⟨0, h⟩) (idxBlk m c ⟨0, h⟩) (hiBlk m c ⟨0, h⟩) (loBlk m c ⟨0, h⟩) (k0_pay1 (F := Ideal)) r d).trans ?_
    rw [pay1_apply, idxBlk_apply m c ⟨0, h⟩ r 0 hq, hiBlk_eq, loBlk_eq, step_coord ⟨0, h⟩]
    unfold part
    rw [show (0 : ℕ) % 6 + 1 = 1 from rfl, Finset.sum_range_one]
    unfold stepTerm wordAt
    simp only [show ((⟨0, h⟩ : Fin cfg0.N).val % 6) = 0 from rfl, show (0 : ℕ) < 3 from by omega, if_true, zero_add]
    try rfl
  | succ n ih =>
    intro h r d hq
    have hN : cfg0.N = 768 := N_0
    let t : Fin cfg0.N := ⟨n + 1, h⟩
    by_cases h0 : (n + 1) % 6 = 0
    · have e := outsAt_A m c t h0
      rw [show outsAt m c (n + 1) h = outsAt m c t.val t.isLt from rfl, e, outA_eq]
      refine (pair0_apply (grid0.coords t) (idxBlk m c t) (hiBlk m c t) (loBlk m c t) (k0_pay1 (F := Ideal)) r d).trans ?_
      rw [pay1_apply, idxBlk_apply m c t r 0 hq, hiBlk_eq, loBlk_eq, step_coord t]
      unfold part
      rw [show t.val % 6 = 0 from h0]
      try rw [h0]
      rw [show (0 : ℕ) + 1 = 1 from rfl, Finset.sum_range_one]
      unfold stepTerm wordAt
      simp only [show (0 : ℕ) < 3 from by omega, if_true, zero_add]
      try rfl
    · have hprev : (n + 1) / 6 = n / 6 := by omega
      have hqp : 2048 * (n / 6) + r.val < 262144 := by rw [← hprev]; exact hq
      have ihv := ih (Nat.lt_of_succ_lt h) r d hqp
      have hpart : part m c (⟨2048 * ((n + 1) / 6) + r.val, hq⟩ : Fin 262144) d ((n + 1) % 6 + 1)
          = part m c (⟨2048 * (n / 6) + r.val, hqp⟩ : Fin 262144) d (n % 6 + 1)
            + stepTerm m c (⟨2048 * ((n + 1) / 6) + r.val, hq⟩ : Fin 262144) d ((n + 1) % 6) := by
        unfold part
        rw [Finset.sum_range_succ]
        have : (n + 1) % 6 = n % 6 + 1 := by omega
        rw [this]
        have hqq : (⟨2048 * ((n + 1) / 6) + r.val, hq⟩ : Fin 262144) = ⟨2048 * (n / 6) + r.val, hqp⟩ :=
          Fin.ext (by show 2048 * ((n + 1) / 6) + r.val = 2048 * (n / 6) + r.val; rw [hprev])
        rw [hqq]
      rw [hpart, ← ihv]
      by_cases h3 : (n + 1) % 6 < 3
      · have e := outsAt_B m c t h0 h3
        rw [show outsAt m c (n + 1) h = outsAt m c t.val t.isLt from rfl, e, outB_eq]
        refine (pair0_apply (grid0.coords t) (idxBlk m c t) (hiBlk m c t) (loBlk m c t) _ r d).trans ?_
        rw [idxBlk_apply m c t r 0 hq, hiBlk_eq, loBlk_eq, step_coord t]
        unfold stepTerm wordAt
        rw [show t.val % 6 = (n + 1) % 6 from rfl, if_pos h3, add_assoc]
        rfl
      · have e := outsAt_C m c t h0 h3
        rw [show outsAt m c (n + 1) h = outsAt m c t.val t.isLt from rfl, e, outC_eq]
        refine (pair1_apply (grid0.coords t) (idxBlk m c t) (hiBlk m c t) (loBlk m c t) _ r d).trans ?_
        rw [idxBlk_apply m c t r 1 hq, hiBlk_eq, loBlk_eq, step_coord t]
        unfold stepTerm wordAt
        rw [show t.val % 6 = (n + 1) % 6 from rfl, if_neg h3, add_assoc]
        rfl

end Cert.KernelIdeal.KValue

end
-- ==== Proof.IdealFinal.lean ====
/-
  The result array after the run.

  The output window writes its block back after the last contraction step of each row tile (points t = 6 a + 5); the
  block then holds the sum of all six steps, and the 128 blocks tile the [262144, 128] result. So the result array
  ends at the function  (q, d) ↦ the sum of the six steps' terms for query row q and column d,  and the program's
  result is its reshape to [16, 512, 32, 128] by the one host operation after the pallas_call.
-/
import proofs.«428704_j21706764714522_3_alg».proof.Proof.IdealAcc
import Idealize.ShloMosaic.Lib.ValueIdx
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Body Cert.KernelIdeal.Payload Cert.KernelIdeal.AccMath
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The pallas_call's result array: at (q, d) the sum of the six steps' terms. -/
def kres (c : Dev nD) : Vec Ideal S262144x128 .f32 :=
  fun i => part m c (⟨(i 0).val, (i 0).isLt⟩ : Fin 262144) (⟨(i 1).val, (i 1).isLt⟩ : Fin 128) 6

/-- WHAT A WRITE-BACK WRITES: at the last step of row tile a the output's buffer holds rows
    [2048 a, 2048 (a + 1)) of `kres`. -/
theorem flushed_eq (c : Dev nD) (t : Fin cfg0.N) (hf : (cfg0.win 3).flush t = true) :
    (dats m 0 c).flushed 3 t = ((cfg0.win 3).blk t).view.read (Elt Ideal) (kres m c) := by
  have h5 : t.val % 6 = 5 := (flush0_3 t).mp hf
  have hN : t.val < 768 := lt_of_lt_of_eq t.isLt (show cfg0.N = 768 from N_0)
  obtain ⟨e0, e1⟩ := index3 t
  show (cfg0.win 3).cut (grid0.coords t) ((dats m 0 c).after 3 t) = _
  rw [after_3]
  funext y
  obtain ⟨r, d, rfl⟩ : ∃ (r : Fin 2048) (d : Fin 128), y = ix2 r d := ⟨y 0, y 1, eq_ix2 y⟩
  have hq : 2048 * (t.val / 6) + r.val < 262144 := by have := r.isLt; omega
  show outsAt m c t.val t.isLt (ix2 r d) = kres m c (((cfg0.win 3).blk t).view.emb (ix2 r d))
  rw [outsAt_apply m c t.val t.isLt r d hq, h5]
  unfold kres
  congr 1
  · apply Fin.ext
    show 2048 * (t.val / 6) + r.val = win0_3.index t (0 : Fin 2) * 2048 + 1 * r.val
    omega
  · apply Fin.ext
    show d.val = win0_3.index t (1 : Fin 2) * 128 + 1 * d.val
    omega

/-- An index of the result array is in point t's block iff each coordinate is in the block's range on its axis. -/
theorem mem_blk3 (t : Fin cfg0.N) (i : S262144x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v39).slice (win0_3.rect t)).set ↔ _
  rw [View.set_slice_whole, Rect.mem_set_unit]
  exact Iff.rfl

/-- Every index of the result array is in the block some write-back writes: row q in the block of tile q / 2048. -/
theorem covered (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  have hN : cfg0.N = 768 := N_0
  let t : Fin cfg0.N := ⟨6 * ((i 0).val / 2048) + 5, by rw [hN]; omega⟩
  obtain ⟨e0, e1⟩ := index3 t
  have ht : t.val = 6 * ((i 0).val / 2048) + 5 := rfl
  refine ⟨t, (flush0_3 t).mpr (by rw [ht]; omega), ?_⟩
  rw [mem_blk3]
  intro a
  match a with
  | ⟨0, _⟩ => show win0_3.index t (0 : Fin 2) * 2048 ≤ (i 0).val ∧ (i 0).val < win0_3.index t (0 : Fin 2) * 2048 + 2048; rw [e0, ht]; omega
  | ⟨1, _⟩ => show win0_3.index t (1 : Fin 2) * 128 ≤ (i 1).val ∧ (i 1).val < win0_3.index t (1 : Fin 2) * 128 + 128; rw [e1]; omega

/-- THE RESULT ARRAY after the run. -/
theorem final3 (c : Dev nD) : (dats m 0 c).arrAt 3 cfg0.N = kres m c :=
  (dats m 0 c).arrAt_eq_of_cover 3 (kres m c) (flushed_eq m c) (covered)

/-- The program's result: the host's reshape of the result array. -/
def kout (c : Dev nD) : Vec Ideal S16x512x32x128 .f32 :=
  shapeCast S16x512x32x128 (kres m c) shapeCasts_S262144x128_S16x512x32x128

/-- What the one host operation after the pallas_call leaves in the program's result buffer. -/
theorem tail_v40 (c : Dev nD) :
    Pipeline.afterTail₀ cfgs (dats m) 0 (V0 m) [hostOps1] c main_v40 = kout m c := by
  unfold Pipeline.afterTail₀
  show StableHlo.after hostOps1 _ (Proc.devRef .tc main_v40) = _
  after_results
  have e : Pipeline.withArrays (cfgs 0).spec c (V0 m c) (fun w => (dats m 0 c).arrAt w (cfgs 0).N) (Proc.devRef .tc main_v39)
      = kres m c :=
    (Pipeline.withArrays_arr spec0 launch0.win.arr_inj c _ _ 3).trans (final3 m c)
  rw [e]
  rfl

end Cert.KernelIdeal.KValue

end
-- ==== Proof.KernelTab.lean ====
/-
  The scaled table, as the kernel's program computes it on the host: `0.1 · (t / max t) + f`, entry by entry,
  the maximum taken over the whole table `t`.
-/
import proofs.«428704_j21706764714522_3_alg».proof.Proof.Gen.KernelIdeal
import Idealize.ShloMosaic.PureOps.Ideal

set_option maxRecDepth 16384

noncomputable section

namespace Cert.KernelIdeal.HostVal

open Cert.KernelIdeal Cert.KernelIdeal.Gen Idealize.ShloMosaic Idealize.ShloMosaic.TcCoe Idealize.SL.Sem

/-- The maximum of a table, as the host's reduce computes it (from `-∞`). -/
def tabMax (t : FVec Ideal S4106x128 .f32) : FVec Ideal S_ .f32 :=
  Host.reduce (FloatOps.maximumf (F := Ideal) (φ := .f32)) t (constant (F := Ideal) S_ .f32 0xFF800000#32) reducesTo_S4106x128_S_d0_1 h_S_

/-- The scaled table `0.1 · (t / max t) + f`. -/
def tab (f t : FVec Ideal S4106x128 .f32) : FVec Ideal S4106x128 .f32 :=
  addf (mulf (broadcastInDim S4106x128 ![] bcast_S_S4106x128 (constant (F := Ideal) S_ .f32 0x3DCCCCCD#32))
    (Host.divf t (broadcastInDim S4106x128 ![] bcast_S_S4106x128 (tabMax t)))) f

end Cert.KernelIdeal.HostVal

end
-- ==== Proof.Spec.lean ====
/-
  The common value of the two programs: a paired-column sum of two looked-up table rows.

  A position word `p` names a table row: a negative word names row 1, any other word the row `min p 4105`
  (the table has 4106 rows; both programs clamp a word past the end to the last row). The result at
  `(b, s, r, d)` is the sum, over the two adjacent columns `2 e` and `2 e + 1`, of one table's row:
  for `d < 64` the first table at the row the position's first word names, with `e = d`; for `d ≥ 64` the
  second table at the row its second word names, with `e = d − 64`. The sum starts from zero, as both
  programs' sums do.
-/
import Idealize.ShloMosaic.Lib.ValueIdx
import Idealize.ShloMosaic.PureOps.Ideal

noncomputable section

namespace Cert.PairGather

open Idealize.ShloMosaic Idealize.ShloMosaic.ValueIdx

/-- The table row a position word names. -/
def rowOf (p : BitVec 32) : Fin 4106 :=
  if p.toInt < 0 then ⟨1, by omega⟩ else ⟨min p.toNat 4105, by omega⟩

/-- The result at `(b, s, r, d)`, over the positions and the two tables. -/
def Gat (pos : (⟨4, ![16, 512, 32, 2]⟩ : Shape).Idx → BitVec 32)
    (Tx Ty : (⟨2, ![4106, 128]⟩ : Shape).Idx → EReal)
    (b : Fin 16) (s : Fin 512) (r : Fin 32) (d : Fin 128) : EReal :=
  if h : d.val < 64 then
    (0 : EReal) + ∑ k : Fin 2, Tx (ix2 (rowOf (pos (ix4 b s r (0 : Fin 2)))) (⟨2 * d.val + k.val, by omega⟩ : Fin 128))
  else
    (0 : EReal) + ∑ k : Fin 2, Ty (ix2 (rowOf (pos (ix4 b s r (1 : Fin 2)))) (⟨2 * (d.val - 64) + k.val, by omega⟩ : Fin 128))

/-- The whole result array. -/
def G (pos : (⟨4, ![16, 512, 32, 2]⟩ : Shape).Idx → BitVec 32)
    (Tx Ty : (⟨2, ![4106, 128]⟩ : Shape).Idx → EReal) :
    (⟨4, ![16, 512, 32, 128]⟩ : Shape).Idx → EReal :=
  fun i => Gat pos Tx Ty (i 0) (i 1) (i 2) (i 3)

theorem G_apply (pos : (⟨4, ![16, 512, 32, 2]⟩ : Shape).Idx → BitVec 32)
    (Tx Ty : (⟨2, ![4106, 128]⟩ : Shape).Idx → EReal) (b : Fin 16) (s : Fin 512) (r : Fin 32) (d : Fin 128) :
    G pos Tx Ty (ix4 b s r d) = Gat pos Tx Ty b s r d := rfl

end Cert.PairGather
-- ==== Proof.KernelHost.lean ====
/-
  What the kernel's host program hands the pallas_call: the index array and the two halves of the combined table,
  as functions of the arguments, read at an index.
-/
import proofs.«428704_j21706764714522_3_alg».proof.Proof.Gen.KernelIdeal.Frame
import proofs.«428704_j21706764714522_3_alg».proof.Proof.KernelTab
import proofs.«428704_j21706764714522_3_alg».proof.Proof.Spec
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.KernelVsHost
import Idealize.ShloMosaic.Lib.IdealHost

set_option maxRecDepth 16384

noncomputable section

namespace Cert.KernelIdeal.HostVal

open Cert.KernelIdeal Cert.KernelIdeal.Gen Cert.PairGather
open Idealize.ShloMosaic Idealize.ShloMosaic.TcCoe Idealize.ShloMosaic.ValueIdx Idealize.SL.Sem

/-! ## The terms -/

/-- The positions with every negative word replaced by 1. -/
def whereT (pos : IVec S16x512x32x2 32) : IVec S16x512x32x2 32 :=
  select (cmpi .slt pos (broadcastInDim S16x512x32x2 ![] bcast_S_S16x512x32x2 (constantI S_ 32 0#32)))
    (broadcastInDim S16x512x32x2 ![] bcast_S_S16x512x32x2 (constantI S_ 32 1#32)) pos

/-- Those words clamped, as signed numbers, into `0 … 4105`. -/
def clipT (pos : IVec S16x512x32x2 32) : IVec S16x512x32x2 32 :=
  minsi (broadcastInDim S16x512x32x2 ![] bcast_S_S16x512x32x2 (constantI S_ 32 4105#32))
    (maxsi (broadcastInDim S16x512x32x2 ![] bcast_S_S16x512x32x2 (constantI S_ 32 0#32)) (whereT pos))

/-- The first words of an array of word pairs, one per query, as a column. -/
def colX (cl : IVec S16x512x32x2 32) : IVec S262144x1 32 :=
  shapeCast S262144x1
    (shapeCast S16x512x32
      (extractStridedSlice S16x512x32x1 ![0, 0, 0, 0] cl slices_S16x512x32x2_S16x512x32x1_0_0_0_0)
      shapeCasts_S16x512x32x1_S16x512x32)
    shapeCasts_S16x512x32_S262144x1

/-- The second words moved by 4224, one per query, as a column. -/
def colY (cl : IVec S16x512x32x2 32) : IVec S262144x1 32 :=
  shapeCast S262144x1
    (addi
      (shapeCast S16x512x32
        (extractStridedSlice S16x512x32x1 ![0, 0, 0, 1] cl slices_S16x512x32x2_S16x512x32x1_0_0_0_1)
        shapeCasts_S16x512x32x1_S16x512x32)
      (broadcastInDim S16x512x32 ![] bcast_S_S16x512x32 (constantI S_ 32 4224#32)))
    shapeCasts_S16x512x32_S262144x1

/-- The two columns side by side. -/
def idxOf (cl : IVec S16x512x32x2 32) : IVec S262144x2 32 :=
  concatenate S262144x2 1 [⟨S262144x1, colX cl⟩, ⟨S262144x1, colY cl⟩] concatenates_S262144x1_S262144x1_S262144x2_d1

/-- The index array `[262144, 2]` the call's first operand holds, as a function of the positions. -/
def idxT (pos : IVec S16x512x32x2 32) : IVec S262144x2 32 :=
  idxOf (clipT pos)

/-- A table with 118 rows of the (converted) word `z` put below it. -/
def padOf (t : FVec Ideal S4106x128 .f32) (z : IVec S_ 32) : FVec Ideal S4224x128 .f32 :=
  pad S4224x128 ![0, 0] ![118, 0] ![0, 0] t (sitofp (F := Ideal) .f32 z) pads_S4106x128_S4224x128_01180_000 h_S_

/-- A padded table with each pair of adjacent columns summed (from zero): 64 columns. -/
def redOf (p : FVec Ideal S4224x128 .f32) : FVec Ideal S4224x64 .f32 :=
  Host.reduceAdd (F := Ideal) (shapeCast S4224x64x2 p shapeCasts_S4224x128_S4224x64x2)
    (constant (F := Ideal) S_ .f32 0x00000000#32) reducesTo_S4224x64x2_S4224x64_d2 h_S_

/-- A block of zeros beside a reduced table. -/
def zeroT : FVec Ideal S4224x64 .f32 :=
  broadcastInDim S4224x64 ![] bcast_S_S4224x64 (constant (F := Ideal) S_ .f32 0x00000000#32)

/-- The combined table of two padded tables: the first, reduced, in the low columns of the upper half, the second
    in the high columns of the lower half, zero elsewhere. -/
def combOf (px py : FVec Ideal S4224x128 .f32) : FVec Ideal S8448x128 .f32 :=
  concatenate S8448x128 0
    [⟨S4224x128, concatenate S4224x128 1 [⟨S4224x64, redOf px⟩, ⟨S4224x64, zeroT⟩] concatenates_S4224x64_S4224x64_S4224x128_d1⟩,
     ⟨S4224x128, concatenate S4224x128 1 [⟨S4224x64, zeroT⟩, ⟨S4224x64, redOf py⟩] concatenates_S4224x64_S4224x64_S4224x128_d1⟩]
    concatenates_S4224x128_S4224x128_S8448x128_d0

/-- Its head part. -/
def hiOf (px py : FVec Ideal S4224x128 .f32) : FVec Ideal S8448x128 .bf16 :=
  truncf .bf16 (combOf px py) bitsLt_bf16_f32

/-- Its residual part. -/
def loOf (px py : FVec Ideal S4224x128 .f32) : FVec Ideal S8448x128 .bf16 :=
  truncf .bf16 (subf (combOf px py) (extf .f32 (hiOf px py) bitsLt_bf16_f32)) bitsLt_bf16_f32

/-- The combined table's head part `[8448, 128]`, as a function of the fixed table and the two tables. -/
def hiT (f tx ty : FVec Ideal S4106x128 .f32) : FVec Ideal S8448x128 .bf16 :=
  hiOf (padOf (tab f tx) (constantI S_ 32 0#32)) (padOf (tab f ty) (constantI S_ 32 0#32))

/-- The combined table's residual part. -/
def loT (f tx ty : FVec Ideal S4106x128 .f32) : FVec Ideal S8448x128 .bf16 :=
  loOf (padOf (tab f tx) (constantI S_ 32 0#32)) (padOf (tab f ty) (constantI S_ 32 0#32))

/-! ## What each stretch of host operations leaves, over any contents `W` before it -/

section Stretches

variable (W : Valuation τ sig (Elt Ideal))

local macro "stretch" : tactic =>
  `(tactic| (simp only [Gen.hostOps0, Gen.hostOps0_1, Gen.hostOps0_2, Gen.hostOps0_3, Gen.hostOps0_4, Gen.hostOps0_5, Gen.hostOps0_6, Gen.hostOps0_7, Gen.hostOps0_8]; after_results))

theorem s8_v38 : StableHlo.after (hostOps0_8 (F := Ideal)) W (Proc.devRef .tc main_v38) = idxOf (W (Proc.devRef .tc main_v29)) := by
  stretch; rfl
theorem s7_v29 : StableHlo.after (hostOps0_7 (F := Ideal)) W (Proc.devRef .tc main_v29)
    = minsi (broadcastInDim S16x512x32x2 ![] bcast_S_S16x512x32x2 (W (Proc.devRef .tc main_c_10)))
        (maxsi (broadcastInDim S16x512x32x2 ![] bcast_S_S16x512x32x2 (W (Proc.devRef .tc main_c_9))) (W (Proc.devRef .tc main_v28))) := by
  stretch; rfl
theorem s6_c9 : StableHlo.after (hostOps0_6 (F := Ideal)) W (Proc.devRef .tc main_c_9) = constantI S_ 32 0#32 := by
  stretch
theorem s6_c10 : StableHlo.after (hostOps0_6 (F := Ideal)) W (Proc.devRef .tc main_c_10) = constantI S_ 32 4105#32 := by
  stretch
theorem s6_v28 : StableHlo.after (hostOps0_6 (F := Ideal)) W (Proc.devRef .tc main_v28) = W (Proc.devRef .tc main_v28) := by
  stretch
theorem s5_v28 : StableHlo.after (hostOps0_5 (F := Ideal)) W (Proc.devRef .tc main_v28)
    = select (W (Proc.devRef .tc main_v27)) (broadcastInDim S16x512x32x2 ![] bcast_S_S16x512x32x2 (W (Proc.devRef .tc main_c_8))) (W (Proc.devRef .tc main_arg0)) := by
  stretch; rfl
theorem s4_v27 : StableHlo.after (hostOps0_4 (F := Ideal)) W (Proc.devRef .tc main_v27)
    = cmpi .slt (W (Proc.devRef .tc main_arg0)) (broadcastInDim S16x512x32x2 ![] bcast_S_S16x512x32x2 (constantI S_ 32 0#32)) := by
  stretch
theorem s4_c8 : StableHlo.after (hostOps0_4 (F := Ideal)) W (Proc.devRef .tc main_c_8) = constantI S_ 32 1#32 := by
  stretch
theorem s4_arg0 : StableHlo.after (hostOps0_4 (F := Ideal)) W (Proc.devRef .tc main_arg0) = W (Proc.devRef .tc main_arg0) := by
  stretch
theorem s3_arg0 : StableHlo.after (hostOps0_3 (F := Ideal)) W (Proc.devRef .tc main_arg0) = W (Proc.devRef .tc main_arg0) := by
  stretch
theorem s2_arg0 : StableHlo.after (hostOps0_2 (F := Ideal)) W (Proc.devRef .tc main_arg0) = W (Proc.devRef .tc main_arg0) := by
  stretch
theorem s1_arg0 : StableHlo.after (hostOps0_1 (F := Ideal)) W (Proc.devRef .tc main_arg0) = W (Proc.devRef .tc main_arg0) := by
  stretch
theorem s0_arg0 : StableHlo.after (hostOps0 (F := Ideal)) W (Proc.devRef .tc main_arg0) = W (Proc.devRef .tc main_arg0) := by
  stretch

theorem s8_v22 : StableHlo.after (hostOps0_8 (F := Ideal)) W (Proc.devRef .tc main_v22) = W (Proc.devRef .tc main_v22) := by
  stretch
theorem s7_v22 : StableHlo.after (hostOps0_7 (F := Ideal)) W (Proc.devRef .tc main_v22) = W (Proc.devRef .tc main_v22) := by
  stretch
theorem s6_v22 : StableHlo.after (hostOps0_6 (F := Ideal)) W (Proc.devRef .tc main_v22) = W (Proc.devRef .tc main_v22) := by
  stretch
theorem s5_v22 : StableHlo.after (hostOps0_5 (F := Ideal)) W (Proc.devRef .tc main_v22) = W (Proc.devRef .tc main_v22) := by
  stretch
theorem s8_v25 : StableHlo.after (hostOps0_8 (F := Ideal)) W (Proc.devRef .tc main_v25) = W (Proc.devRef .tc main_v25) := by
  stretch
theorem s7_v25 : StableHlo.after (hostOps0_7 (F := Ideal)) W (Proc.devRef .tc main_v25) = W (Proc.devRef .tc main_v25) := by
  stretch
theorem s6_v25 : StableHlo.after (hostOps0_6 (F := Ideal)) W (Proc.devRef .tc main_v25) = W (Proc.devRef .tc main_v25) := by
  stretch
theorem s5_v25 : StableHlo.after (hostOps0_5 (F := Ideal)) W (Proc.devRef .tc main_v25) = W (Proc.devRef .tc main_v25) := by
  stretch
theorem s4_v22 : StableHlo.after (hostOps0_4 (F := Ideal)) W (Proc.devRef .tc main_v22)
    = hiOf (W (Proc.devRef .tc main_v12)) (W (Proc.devRef .tc main_v13)) := by
  stretch; rfl
theorem s4_v25 : StableHlo.after (hostOps0_4 (F := Ideal)) W (Proc.devRef .tc main_v25)
    = loOf (W (Proc.devRef .tc main_v12)) (W (Proc.devRef .tc main_v13)) := by
  stretch; rfl
theorem s3_v13 : StableHlo.after (hostOps0_3 (F := Ideal)) W (Proc.devRef .tc main_v13)
    = padOf (W (Proc.devRef .tc main_v11)) (W (Proc.devRef .tc main_c_3)) := by
  stretch; rfl
theorem s3_v12 : StableHlo.after (hostOps0_3 (F := Ideal)) W (Proc.devRef .tc main_v12) = W (Proc.devRef .tc main_v12) := by
  stretch
theorem s2_c3 : StableHlo.after (hostOps0_2 (F := Ideal)) W (Proc.devRef .tc main_c_3) = constantI S_ 32 0#32 := by
  stretch
theorem s2_v12 : StableHlo.after (hostOps0_2 (F := Ideal)) W (Proc.devRef .tc main_v12) = W (Proc.devRef .tc main_v12) := by
  stretch
theorem s2_v11 : StableHlo.after (hostOps0_2 (F := Ideal)) W (Proc.devRef .tc main_v11) = W (Proc.devRef .tc main_v11) := by
  stretch
theorem s1_v12 : StableHlo.after (hostOps0_1 (F := Ideal)) W (Proc.devRef .tc main_v12)
    = padOf (W (Proc.devRef .tc main_v5)) (W (Proc.devRef .tc main_c)) := by
  stretch; rfl
theorem s1_v11 : StableHlo.after (hostOps0_1 (F := Ideal)) W (Proc.devRef .tc main_v11) = W (Proc.devRef .tc main_v11) := by
  stretch
theorem s0_c : StableHlo.after (hostOps0 (F := Ideal)) W (Proc.devRef .tc main_c) = constantI S_ 32 0#32 := by
  stretch
theorem s0_v5 : StableHlo.after (hostOps0 (F := Ideal)) W (Proc.devRef .tc main_v5)
    = tab (W (Proc.devRef .tc main_arg1)) (W (Proc.devRef .tc main_arg2)) := by
  stretch; rfl
theorem s0_v11 : StableHlo.after (hostOps0 (F := Ideal)) W (Proc.devRef .tc main_v11)
    = tab (W (Proc.devRef .tc main_arg1)) (W (Proc.devRef .tc main_arg3)) := by
  stretch; rfl

end Stretches

variable (m : (ℓ : Loc nD τ sig) → Buf (Elt Ideal) ℓ)

/-- The region finds the index array at `idxT` of the positions. -/
theorem V_v38 (c : Dev nD) : V m c main_v38 = idxT (m ((c.tc : Thread nD τ).loc main_arg0)) := by
  dsimp only [Gen.V, Gen.V0]
  simp only [List.flatten_cons, List.flatten_nil, List.append_nil, StableHlo.after_append]
  rw [s8_v38, s7_v29, s6_c9, s6_c10, s6_v28, s5_v28, s4_v27, s4_c8, s4_arg0, s3_arg0, s2_arg0, s1_arg0, s0_arg0]
  rfl

/-- The region finds the head table at `hiT` of the arguments. -/
theorem V_v22 (c : Dev nD) : V m c main_v22 = hiT (m ((c.tc : Thread nD τ).loc main_arg1)) (m ((c.tc : Thread nD τ).loc main_arg2)) (m ((c.tc : Thread nD τ).loc main_arg3)) := by
  dsimp only [Gen.V, Gen.V0]
  simp only [List.flatten_cons, List.flatten_nil, List.append_nil, StableHlo.after_append]
  rw [s8_v22, s7_v22, s6_v22, s5_v22, s4_v22, s3_v13, s3_v12, s2_c3, s2_v12, s2_v11, s1_v12, s1_v11, s0_c, s0_v5, s0_v11]
  rfl

/-- The region finds the residual table at `loT` of the arguments. -/
theorem V_v25 (c : Dev nD) : V m c main_v25 = loT (m ((c.tc : Thread nD τ).loc main_arg1)) (m ((c.tc : Thread nD τ).loc main_arg2)) (m ((c.tc : Thread nD τ).loc main_arg3)) := by
  dsimp only [Gen.V, Gen.V0]
  simp only [List.flatten_cons, List.flatten_nil, List.append_nil, StableHlo.after_append]
  rw [s8_v25, s7_v25, s6_v25, s5_v25, s4_v25, s3_v13, s3_v12, s2_c3, s2_v12, s2_v11, s1_v12, s1_v11, s0_c, s0_v5, s0_v11]
  rfl

/-! ## The index array at an index -/

/-- What the host does to one position word: a negative word becomes 1, then the word is clamped, as a signed
    number, into `0 … 4105`. -/
def clipWord (p : BitVec 32) : BitVec 32 :=
  IntOp.minsi 4105#32 (IntOp.maxsi 0#32 (Scalar.select (IntOp.cmpi .slt p 0#32) 1#32 p))

/-- The clamped word is the table row the word names: a negative word gives 1; a word that is not negative is its
    own unsigned value, and the signed minimum with 4105 is the minimum of naturals. -/
theorem clipWord_eq (p : BitVec 32) : clipWord p = BitVec.ofNat 32 (rowOf p).val := by
  have hcond := BitVec.toInt_eq_toNat_cond p
  have hlt : p.toNat < 2 ^ 32 := p.isLt
  have e0 : (0#32 : BitVec 32).toInt = 0 := by decide
  have e4105 : (4105#32 : BitVec 32).toInt = 4105 := by decide
  by_cases hp : p.toInt < 0
  · have h1 : p.slt 0#32 = true := by rw [BitVec.slt, e0]; exact decide_eq_true hp
    have hw : Scalar.select (IntOp.cmpi .slt p 0#32) 1#32 p = 1#32 := by
      show (if BitVec.ofBool (p.slt 0#32) = 1 then 1#32 else p) = 1#32
      rw [h1]; rfl
    unfold clipWord rowOf
    rw [hw, if_pos hp]
    rfl
  · have h1 : p.slt 0#32 = false := by rw [BitVec.slt, e0]; exact decide_eq_false hp
    have hw : Scalar.select (IntOp.cmpi .slt p 0#32) 1#32 p = p := by
      show (if BitVec.ofBool (p.slt 0#32) = 1 then 1#32 else p) = p
      rw [h1]; rfl
    have hm : IntOp.maxsi 0#32 p = p := by
      show (if p.slt 0#32 = true then 0#32 else p) = p
      rw [h1]; rfl
    have hnat : p.toInt = (p.toNat : Int) := by
      by_cases h : 2 * p.toNat < 2 ^ 32
      · rw [hcond, if_pos h]
      · rw [hcond, if_neg h] at hp; omega
    unfold clipWord rowOf
    rw [hw, hm, if_neg hp]
    show (if (4105#32 : BitVec 32).slt p = true then 4105#32 else p) = BitVec.ofNat 32 (min p.toNat 4105)
    by_cases h2 : (4105#32 : BitVec 32).slt p = true
    · rw [if_pos h2]
      have h3 : (4105 : Int) < p.toInt := by rw [BitVec.slt, e4105] at h2; exact of_decide_eq_true h2
      have h4 : min p.toNat 4105 = 4105 := by omega
      rw [h4]
    · rw [if_neg h2]
      have h3 : ¬ (4105 : Int) < p.toInt := by
        intro h; apply h2; rw [BitVec.slt, e4105]; exact decide_eq_true h
      have h4 : min p.toNat 4105 = p.toNat := by omega
      rw [h4, BitVec.ofNat_toNat, BitVec.setWidth_eq]

/-- The clamped positions at an index: the clamped word. -/
theorem clipT_apply (pos : IVec S16x512x32x2 32) (i : S16x512x32x2.Idx) : clipT pos i = clipWord (pos i) := rfl

/-- The first column at query `(b, s, r)`, which is row `(512 b + s) · 32 + r` in row-major order. -/
theorem colX_apply (cl : IVec S16x512x32x2 32) (b : Fin 16) (s : Fin 512) (r : Fin 32) (q : Fin 262144)
    (hq : q.val = (b.val * 512 + s.val) * 32 + r.val) :
    colX cl (ix2 q (0 : Fin 1)) = cl (ix4 b s r (0 : Fin 2)) := by
  unfold colX
  refine (shapeCast_apply _ _ (ix2 q (0 : Fin 1)) (ix3 b s r) ?_).trans ?_
  · rw [Shape.rowMajor_val_three, Shape.rowMajor_val_two]
    show (b.val * 512 + s.val) * 32 + r.val = q.val * 1 + 0
    omega
  refine (shapeCast_apply _ _ (ix3 b s r) (ix4 b s r (0 : Fin 1)) ?_).trans ?_
  · rw [Shape.rowMajor_val_four, Shape.rowMajor_val_three]
    show ((b.val * 512 + s.val) * 32 + r.val) * 1 + 0 = (b.val * 512 + s.val) * 32 + r.val
    omega
  refine extractStridedSlice_apply _ _ _ (ix4 b s r (0 : Fin 1)) (ix4 b s r (0 : Fin 2)) fun a => ?_
  match a with
  | ⟨0, _⟩ => exact (Nat.zero_add _).symm
  | ⟨1, _⟩ => exact (Nat.zero_add _).symm
  | ⟨2, _⟩ => exact (Nat.zero_add _).symm
  | ⟨3, _⟩ => rfl

/-- The second column at query `(b, s, r)`: the second word plus 4224. -/
theorem colY_apply (cl : IVec S16x512x32x2 32) (b : Fin 16) (s : Fin 512) (r : Fin 32) (q : Fin 262144)
    (hq : q.val = (b.val * 512 + s.val) * 32 + r.val) :
    colY cl (ix2 q (0 : Fin 1)) = cl (ix4 b s r (1 : Fin 2)) + 4224#32 := by
  unfold colY
  refine (shapeCast_apply _ _ (ix2 q (0 : Fin 1)) (ix3 b s r) ?_).trans ?_
  · rw [Shape.rowMajor_val_three, Shape.rowMajor_val_two]
    show (b.val * 512 + s.val) * 32 + r.val = q.val * 1 + 0
    omega
  refine congrArg (fun w : BitVec 32 => w + 4224#32) ?_
  refine (shapeCast_apply _ _ (ix3 b s r) (ix4 b s r (0 : Fin 1)) ?_).trans ?_
  · rw [Shape.rowMajor_val_four, Shape.rowMajor_val_three]
    show ((b.val * 512 + s.val) * 32 + r.val) * 1 + 0 = (b.val * 512 + s.val) * 32 + r.val
    omega
  refine extractStridedSlice_apply _ _ _ (ix4 b s r (0 : Fin 1)) (ix4 b s r (1 : Fin 2)) fun a => ?_
  match a with
  | ⟨0, _⟩ => exact (Nat.zero_add _).symm
  | ⟨1, _⟩ => exact (Nat.zero_add _).symm
  | ⟨2, _⟩ => exact (Nat.zero_add _).symm
  | ⟨3, _⟩ => rfl

/-- Column 0 of the index array at query `(b, s, r)` (row `(512 b + s) · 32 + r`): the row its first word names. -/
theorem idxT_col0 (pos : IVec S16x512x32x2 32) (b : Fin 16) (s : Fin 512) (r : Fin 32) :
    idxT pos (ix2 (⟨(b.val * 512 + s.val) * 32 + r.val, by omega⟩ : Fin 262144) (0 : Fin 2))
      = BitVec.ofNat 32 (rowOf (pos (ix4 b s r (0 : Fin 2)))).val := by
  unfold idxT idxOf
  refine (concatenate_pair_apply_left _ _ _ concatenates_S262144x1_S262144x1_S262144x2_d1 _ rfl
    (ix2 (⟨(b.val * 512 + s.val) * 32 + r.val, by omega⟩ : Fin 262144) (0 : Fin 1)) ?_).trans ?_
  · intro a
    match a with
    | ⟨0, _⟩ => rfl
    | ⟨1, _⟩ => rfl
  rw [colX_apply _ b s r (⟨(b.val * 512 + s.val) * 32 + r.val, by omega⟩ : Fin 262144) rfl, clipT_apply, clipWord_eq]

/-- Column 1: the row its second word names, moved into the second half of the combined table. -/
theorem idxT_col1 (pos : IVec S16x512x32x2 32) (b : Fin 16) (s : Fin 512) (r : Fin 32) :
    idxT pos (ix2 (⟨(b.val * 512 + s.val) * 32 + r.val, by omega⟩ : Fin 262144) (1 : Fin 2))
      = BitVec.ofNat 32 (4224 + (rowOf (pos (ix4 b s r (1 : Fin 2)))).val) := by
  unfold idxT idxOf
  refine (concatenate_pair_apply_right _ _ _ concatenates_S262144x1_S262144x1_S262144x2_d1 _ rfl rfl
    (ix2 (⟨(b.val * 512 + s.val) * 32 + r.val, by omega⟩ : Fin 262144) (0 : Fin 1)) ?_ ?_).trans ?_
  · intro a hne
    match a with
    | ⟨0, _⟩ => rfl
    | ⟨1, _⟩ => exact absurd (Fin.ext rfl) hne
  · rfl
  rw [colY_apply _ b s r (⟨(b.val * 512 + s.val) * 32 + r.val, by omega⟩ : Fin 262144) rfl, clipT_apply, clipWord_eq, Nat.add_comm 4224]
  exact (BitVec.ofNat_add _ _).symm

/-! ## The combined table at an index -/

/-- The zero block is zero everywhere. -/
theorem zeroT_apply (i : S4224x64.Idx) : zeroT i = (0 : EReal) := by
  show Ideal.ofBits .f32 0x00000000#32 = (0 : EReal)
  exact Ideal.ofBits_zero_f32

/-- The padded table at a row of the table itself is the table. -/
theorem padOf_apply (t : FVec Ideal S4106x128 .f32) (z : IVec S_ 32) (ρ : Fin 4106) (d : Fin 128) :
    padOf t z (ix2 (⟨ρ.val, by omega⟩ : Fin 4224) d) = t (ix2 ρ d) := by
  unfold padOf
  refine pad_apply_of_inside _ _ _ _ _ _ _ _ (ix2 ρ d) fun a => ?_
  match a with
  | ⟨0, _⟩ => show ρ.val = 0 + ρ.val * (0 + 1); omega
  | ⟨1, _⟩ => show d.val = 0 + d.val * (0 + 1); omega

/-- The reduced table at `(ρ, e)`: zero plus the padded table's columns `2 e` and `2 e + 1` of row `ρ`
    (entry `(ρ, e, k)` of the reshaped table is entry `(ρ, 2 e + k)`). -/
theorem redOf_apply (p : FVec Ideal S4224x128 .f32) (ρ : Fin 4224) (e : Fin 64) :
    redOf p (ix2 ρ e) = (0 : EReal) + ∑ k : Fin 2, p (ix2 ρ (⟨2 * e.val + k.val, by omega⟩ : Fin 128)) := by
  have hR : S4224x64x2.Reduces [2] S4224x64 := by decide
  unfold redOf
  refine (hostReduceAdd_apply _ _ _ _ _).trans ?_
  refine (Ideal.hostReduceAdd_single reducesTo_S4224x64x2_S4224x64_d2 hR _ _ _).trans ?_
  show Ideal.ofBits .f32 0x00000000#32
      + ∑ k : Fin 2, shapeCast S4224x64x2 p shapeCasts_S4224x128_S4224x64x2 (hR.lift (ix2 ρ e) k) = _
  rw [Ideal.ofBits_zero_f32]
  refine congrArg ((0 : EReal) + ·) (Finset.sum_congr rfl fun k _ => ?_)
  refine shapeCast_apply _ _ _ (ix2 ρ (⟨2 * e.val + k.val, by omega⟩ : Fin 128)) ?_
  rw [Shape.rowMajor_val_two, Shape.rowMajor_val_three]
  show ρ.val * 128 + (2 * e.val + k.val) = (ρ.val * 64 + e.val) * 2 + k.val
  omega

/-- The combined table at a row of its upper half: the first reduced table in the low 64 columns, zero in the
    high 64. -/
theorem combOf_top (px py : FVec Ideal S4224x128 .f32) (ρ : Nat) (hρ : ρ < 4224) (d : Fin 128) :
    combOf px py (ix2 (⟨ρ, by omega⟩ : Fin 8448) d)
      = if h : d.val < 64 then redOf px (ix2 (⟨ρ, hρ⟩ : Fin 4224) (⟨d.val, h⟩ : Fin 64)) else 0 := by
  unfold combOf
  refine (concatenate_pair_apply_left _ _ _ concatenates_S4224x128_S4224x128_S8448x128_d0 _ rfl
    (ix2 (⟨ρ, hρ⟩ : Fin 4224) d) ?_).trans ?_
  · intro a
    match a with
    | ⟨0, _⟩ => rfl
    | ⟨1, _⟩ => rfl
  by_cases h : d.val < 64
  · rw [dif_pos h]
    refine concatenate_pair_apply_left _ _ _ concatenates_S4224x64_S4224x64_S4224x128_d1 _ rfl
      (ix2 (⟨ρ, hρ⟩ : Fin 4224) (⟨d.val, h⟩ : Fin 64)) ?_
    intro a
    match a with
    | ⟨0, _⟩ => rfl
    | ⟨1, _⟩ => rfl
  · rw [dif_neg h]
    refine (concatenate_pair_apply_right _ _ _ concatenates_S4224x64_S4224x64_S4224x128_d1 _ rfl rfl
      (ix2 (⟨ρ, hρ⟩ : Fin 4224) (⟨d.val - 64, by omega⟩ : Fin 64)) ?_ ?_).trans (zeroT_apply _)
    · intro a hne
      match a with
      | ⟨0, _⟩ => rfl
      | ⟨1, _⟩ => exact absurd (Fin.ext rfl) hne
    · show (d.val - 64) + 64 = d.val
      omega

/-- The combined table at a row of its lower half: zero in the low 64 columns, the second reduced table in the
    high 64. -/
theorem combOf_bot (px py : FVec Ideal S4224x128 .f32) (ρ : Nat) (hρ : ρ < 4224) (d : Fin 128) :
    combOf px py (ix2 (⟨4224 + ρ, by omega⟩ : Fin 8448) d)
      = if h : d.val < 64 then 0 else redOf py (ix2 (⟨ρ, hρ⟩ : Fin 4224) (⟨d.val - 64, by omega⟩ : Fin 64)) := by
  unfold combOf
  refine (concatenate_pair_apply_right _ _ _ concatenates_S4224x128_S4224x128_S8448x128_d0 _ rfl rfl
    (ix2 (⟨ρ, hρ⟩ : Fin 4224) d) ?_ ?_).trans ?_
  · intro a hne
    match a with
    | ⟨0, _⟩ => exact absurd (Fin.ext rfl) hne
    | ⟨1, _⟩ => rfl
  · show ρ + 4224 = 4224 + ρ
    omega
  by_cases h : d.val < 64
  · rw [dif_pos h]
    refine (concatenate_pair_apply_left _ _ _ concatenates_S4224x64_S4224x64_S4224x128_d1 _ rfl
      (ix2 (⟨ρ, hρ⟩ : Fin 4224) (⟨d.val, h⟩ : Fin 64)) ?_).trans (zeroT_apply _)
    intro a
    match a with
    | ⟨0, _⟩ => rfl
    | ⟨1, _⟩ => rfl
  · rw [dif_neg h]
    refine concatenate_pair_apply_right _ _ _ concatenates_S4224x64_S4224x64_S4224x128_d1 _ rfl rfl
      (ix2 (⟨ρ, hρ⟩ : Fin 4224) (⟨d.val - 64, by omega⟩ : Fin 64)) ?_ ?_
    · intro a hne
      match a with
      | ⟨0, _⟩ => rfl
      | ⟨1, _⟩ => exact absurd (Fin.ext rfl) hne
    · show (d.val - 64) + 64 = d.val
      omega

/-- The head table at a row of the first half that is a table row: the paired-column sum of the first scaled table
    in the low 64 columns, zero in the high 64. -/
theorem hiT_top (f tx ty : FVec Ideal S4106x128 .f32) (ρ : Fin 4106) (d : Fin 128) :
    hiT f tx ty (ix2 (⟨ρ.val, by omega⟩ : Fin 8448) d)
      = if h : d.val < 64 then (0 : EReal) + ∑ k : Fin 2, tab f tx (ix2 ρ (⟨2 * d.val + k.val, by omega⟩ : Fin 128)) else 0 := by
  show combOf (padOf (tab f tx) (constantI S_ 32 0#32)) (padOf (tab f ty) (constantI S_ 32 0#32)) _ = _
  refine (combOf_top _ _ ρ.val (by omega) d).trans ?_
  by_cases h : d.val < 64
  · rw [dif_pos h, dif_pos h]
    refine (redOf_apply _ _ _).trans ?_
    refine congrArg ((0 : EReal) + ·) (Finset.sum_congr rfl fun k _ => ?_)
    exact padOf_apply _ _ ρ _
  · rw [dif_neg h, dif_neg h]

/-- The head table at a row of the second half that is a table row: zero in the low 64 columns, the paired-column
    sum of the second scaled table in the high 64. -/
theorem hiT_bot (f tx ty : FVec Ideal S4106x128 .f32) (ρ : Fin 4106) (d : Fin 128) :
    hiT f tx ty (ix2 (⟨4224 + ρ.val, by omega⟩ : Fin 8448) d)
      = if h : d.val < 64 then 0 else (0 : EReal) + ∑ k : Fin 2, tab f ty (ix2 ρ (⟨2 * (d.val - 64) + k.val, by omega⟩ : Fin 128)) := by
  show combOf (padOf (tab f tx) (constantI S_ 32 0#32)) (padOf (tab f ty) (constantI S_ 32 0#32)) _ = _
  refine (combOf_bot _ _ ρ.val (by omega) d).trans ?_
  by_cases h : d.val < 64
  · rw [dif_pos h, dif_pos h]
  · rw [dif_neg h, dif_neg h]
    refine (redOf_apply _ _ _).trans ?_
    refine congrArg ((0 : EReal) + ·) (Finset.sum_congr rfl fun k _ => ?_)
    exact padOf_apply _ _ ρ _

/-- The residual table is the head table's entry less itself (at the extended reals a change of format is the identity). -/
theorem loT_apply (f tx ty : FVec Ideal S4106x128 .f32) (x : S8448x128.Idx) :
    loT f tx ty x = hiT f tx ty x - hiT f tx ty x := by
  rfl

end Cert.KernelIdeal.HostVal

end
-- ==== Proof.Finite.lean ====
/-
  Under the precondition (every float input finite) no entry of a scaled table is `+∞`: an entry `x` of a table
  is at most the table's maximum `M`, so where `M = 0` the quotient `x / M` is `-∞` (never `+∞`), and where
  `M ≠ 0` it is a real number; `0.1 ·` and `+ f` keep a value other than `+∞` so.
-/
import proofs.«428704_j21706764714522_3_alg».proof.Defs
import proofs.«428704_j21706764714522_3_alg».proof.Proof.Gen.KernelIdeal
import proofs.«428704_j21706764714522_3_alg».proof.Proof.Gen.Pre_finite_inputs
import proofs.«428704_j21706764714522_3_alg».proof.Proof.KernelTab
import Idealize.ShloMosaic.Lib.ValueIdx
import Idealize.ShloMosaic.Lib.ReduceAll
import Idealize.ShloMosaic.Lib.IdealHost
import Idealize.ShloMosaic.PureOps.Ideal.Laws

set_option maxRecDepth 16384

noncomputable section

namespace Cert.KernelIdeal.HostVal

open Cert.KernelIdeal Cert.KernelIdeal.Gen
open Idealize.ShloMosaic Idealize.ShloMosaic.TcCoe Idealize.ShloMosaic.ValueIdx Idealize.SL.Sem

/-! ### The precondition, read entry by entry -/

/-- The pattern the precondition compares against denotes `+∞`. -/
theorem Finite.ofBits_inf : Ideal.ofBits .f32 0x7F800000#32 = (⊤ : EReal) := by
  simp [Ideal.ofBits, Ideal.ieee]

/-- An extended real whose absolute value `max x (-x)` is below `+∞` is a real number: at `-∞` and at `+∞`
    the absolute value is `+∞`. -/
theorem Finite.real_of_abs_lt (x : EReal)
    (h : FloatOps.cmpf (F := Ideal) (φ := .f32) .olt (FloatOps.hostAbsf (F := Ideal) (φ := .f32) x)
      (Ideal.ofBits .f32 0x7F800000#32) = 1#1) :
    ∃ r : ℝ, x = (r : EReal) := by
  rw [Finite.ofBits_inf] at h
  induction x using EReal.rec with
  | bot => simp [Ideal.cmpf_def, Ideal.absf_def, Ideal.cmp] at h
  | coe r => exact ⟨r, rfl⟩
  | top => simp [Ideal.cmpf_def, Ideal.absf_def, Ideal.cmp] at h

variable (m : (ℓ : Loc nD τ sig) → Buf (Elt Ideal) ℓ)

/-- Under the precondition every entry of the three float arguments is a real number. -/
theorem real_of_pre (hpre : Cert.Pre_KernelIdeal m) (c : Dev nD) :
    (∀ i, ∃ x : ℝ, m ((c.tc : Thread nD τ).loc main_arg1) i = (x : EReal))
    ∧ (∀ i, ∃ x : ℝ, m ((c.tc : Thread nD τ).loc main_arg2) i = (x : EReal))
    ∧ (∀ i, ∃ x : ℝ, m ((c.tc : Thread nD τ).loc main_arg3) i = (x : EReal)) := by
  -- the predicate's one result entry is the conjunction of three "all entries have |x| < +∞"
  haveI : Subsingleton Cert.Pre_finite_inputs.S_.Idx := ⟨fun a b => funext fun d => d.elim0⟩
  have h := congrFun (hpre c) ValueIdx.ix0
  dsimp only [Cert.Pre_finite_inputs.fn] at h
  obtain ⟨h12, h3⟩ := IntOp.andi_eq_one.1 h
  obtain ⟨h1, h2⟩ := IntOp.andi_eq_one.1 h12
  exact ⟨fun i => Finite.real_of_abs_lt _ (Host.reduce_andi_all _ _ _ _ _ h1 i),
    fun i => Finite.real_of_abs_lt _ (Host.reduce_andi_all _ _ _ _ _ h2 i),
    fun i => Finite.real_of_abs_lt _ (Host.reduce_andi_all _ _ _ _ _ h3 i)⟩

/-! ### No entry of a scaled table is `+∞` -/

/-- The scale constant is a positive real number. -/
theorem Finite.tenth_pos : ∃ p : ℝ, 0 < p ∧ Ideal.ofBits .f32 0x3DCCCCCD#32 = (p : EReal) := by
  simp [Ideal.ofBits, Ideal.ieee, -EReal.coe_mul]

/-- Every entry of a table is at most the table's maximum: the maximum is the fold of `max` from `-∞` over all
    entries, and a fold of `max` is at least each of its members. -/
theorem Finite.le_tabMax (t : FVec Ideal S4106x128 .f32) (i : S4106x128.Idx) : t i ≤ tabMax t ix0 := by
  unfold tabMax
  rw [Host.reduce_eq_fold]
  exact (Finset.le_fold_max (t i)).2
    (Or.inr ⟨i, Finset.mem_filter.2 ⟨Finset.mem_univ _, funext fun d => d.elim0⟩, le_rfl⟩)

/-- A real number divided by a bound `M` of it is never `+∞`: at `M = 0` the number is not positive and the
    quotient is `-∞`; `M` is not `-∞`; at `M = +∞` the quotient is `r · 0`; at a real `M ≠ 0` it is a real. -/
theorem Finite.div_ne_top_of_le (r : ℝ) (M : EReal) (h : (r : EReal) ≤ M) : Ideal.div (r : EReal) M ≠ ⊤ := by
  unfold Ideal.div
  by_cases h0 : M = 0
  · rw [if_pos h0, if_neg (by rw [h0] at h; exact not_lt.2 h)]
    exact bot_ne_top
  · rw [if_neg h0]
    induction M using EReal.rec with
    | bot => exact absurd h (by simp)
    | coe s =>
      rw [← EReal.coe_inv, ← EReal.coe_mul]
      exact EReal.coe_ne_top _
    | top => simp

/-- A positive real multiple of a value other than `+∞` is not `+∞`. -/
theorem Finite.pos_mul_ne_top (p : ℝ) (hp : 0 < p) (y : EReal) (hy : y ≠ ⊤) : (p : EReal) * y ≠ ⊤ := by
  induction y using EReal.rec with
  | bot => rw [EReal.coe_mul_bot_of_pos hp]; exact bot_ne_top
  | coe s => rw [← EReal.coe_mul]; exact EReal.coe_ne_top _
  | top => exact absurd rfl hy

/-- An entry of the scaled table, written out: `p · (t i / max t) + f i` with `p` the scale constant. -/
theorem Finite.tab_apply (f t : FVec Ideal S4106x128 .f32) (i : S4106x128.Idx) :
    tab f t i = Ideal.ofBits .f32 0x3DCCCCCD#32 * Ideal.div (t i) (tabMax t ix0) + f i := by
  unfold tab
  rw [addf_apply, mulf_apply, hostDivf_apply, broadcastInDim_scalar_apply, broadcastInDim_scalar_apply,
    constant_apply]

/-- No entry of a scaled table of real tables is `+∞`. -/
theorem tab_ne_top (f t : FVec Ideal S4106x128 .f32)
    (hf : ∀ i, ∃ x : ℝ, f i = (x : EReal)) (ht : ∀ i, ∃ x : ℝ, t i = (x : EReal)) (i : S4106x128.Idx) :
    tab f t i ≠ ⊤ := by
  obtain ⟨p, hp, ep⟩ := Finite.tenth_pos
  obtain ⟨a, ea⟩ := hf i
  obtain ⟨b, eb⟩ := ht i
  have hle := Finite.le_tabMax t i
  rw [eb] at hle
  rw [Finite.tab_apply, ep, ea, eb]
  exact EReal.add_ne_top (Finite.pos_mul_ne_top p hp _ (Finite.div_ne_top_of_le b _ hle)) (EReal.coe_ne_top _)

end Cert.KernelIdeal.HostVal

end
-- ==== Proof.IdealClosed.lean ====
/-
  The kernel's result is the common value.

  For query (b, s, r) — row q = (512 b + s) · 32 + r of the index array — the first index word is the table row the
  position's first word names and the second is 4224 plus the row its second word names; so of the six steps exactly
  one of each half contributes, and the element is  (X + (X − X)) + (Y + (Y − Y))  with X the head table's entry at
  the first row and Y its entry at the second. In the low 64 columns Y = 0 and X is the paired-column sum of the first
  scaled table; in the high 64 columns X = 0 and Y is that of the second. Under the precondition no entry of a scaled
  table is +∞, so the recombination  X + (X − X)  is X.
-/
import proofs.«428704_j21706764714522_3_alg».proof.Proof.IdealFinal
import proofs.«428704_j21706764714522_3_alg».proof.Proof.KernelHost
import proofs.«428704_j21706764714522_3_alg».proof.Proof.Finite
import proofs.«428704_j21706764714522_3_alg».proof.Proof.Spec
import Idealize.ShloMosaic.Lib.ValueIdx
import Idealize.ShloMosaic.Lib.Pipeline.Value

set_option maxRecDepth 16384

noncomputable section

namespace Cert.KernelIdeal.KValue

open Cert.KernelIdeal Cert.KernelIdeal.Gen Cert.KernelIdeal.Body Cert.KernelIdeal.AccMath Cert.KernelIdeal.HostVal Cert.PairGather
open Idealize.ShloMosaic Idealize.ShloMosaic.TcCoe Idealize.ShloMosaic.ValueIdx
open Idealize.SL.Sem

variable (m : (ℓ : Loc nD τ sig) → Buf (Elt Ideal) ℓ)

/-- The program's result at (b, s, r, d) is the result array's element (q, d) of the query's row q. -/
theorem kout_apply (c : Dev nD) (b : Fin 16) (s : Fin 512) (r : Fin 32) (d : Fin 128) (hq : (b.val * 512 + s.val) * 32 + r.val < 262144) :
    kout m c (ix4 b s r d) = part m c (⟨(b.val * 512 + s.val) * 32 + r.val, hq⟩ : Fin 262144) d 6 := by
  unfold kout
  rw [shapeCast_apply (kres m c) shapeCasts_S262144x128_S16x512x32x128 (ix4 b s r d)
    (ix2 (⟨(b.val * 512 + s.val) * 32 + r.val, hq⟩ : Fin 262144) d)
    (by rw [Shape.rowMajor_val_two, Shape.rowMajor_val_four]
        show ((b.val * 512 + s.val) * 32 + r.val) * 128 + d.val = ((b.val * 512 + s.val) * 32 + r.val) * 128 + d.val
        rfl)]
  rfl

/-- THE KERNEL'S RESULT IS `G` of the positions and the two scaled tables, under the precondition. -/
theorem kout_eq (hpre : Cert.Pre_KernelIdeal m) (c : Dev nD) :
    kout m c = G (m ((c.tc : Thread nD τ).loc main_arg0))
      (tab (m ((c.tc : Thread nD τ).loc main_arg1)) (m ((c.tc : Thread nD τ).loc main_arg2)))
      (tab (m ((c.tc : Thread nD τ).loc main_arg1)) (m ((c.tc : Thread nD τ).loc main_arg3))) := by
  obtain ⟨hf, hx, hy⟩ := real_of_pre m hpre c
  funext i
  obtain ⟨b, s, r, d, rfl⟩ : ∃ (b : Fin 16) (s : Fin 512) (r : Fin 32) (d : Fin 128), i = ix4 b s r d :=
    ⟨i 0, i 1, i 2, i 3, eq_ix4 i⟩
  have hb := b.isLt; have hs := s.isLt; have hr := r.isLt
  have hq : (b.val * 512 + s.val) * 32 + r.val < 262144 := by omega
  rw [kout_apply m c b s r d hq, G_apply]
  unfold Gat
  generalize hpos : m ((c.tc : Thread nD τ).loc main_arg0) = pos
  generalize hfx : m ((c.tc : Thread nD τ).loc main_arg1) = f at hf
  generalize htx : m ((c.tc : Thread nD τ).loc main_arg2) = tx at hx
  generalize hty : m ((c.tc : Thread nD τ).loc main_arg3) = ty at hy
  -- the two index words of the query
  have hwx : wx m c ⟨(b.val * 512 + s.val) * 32 + r.val, hq⟩ = BitVec.ofNat 32 (rowOf (pos (ix4 b s r (0 : Fin 2)))).val := by
    show (V m c main_v38 : IVec S262144x2 32) _ = _
    rw [V_v38, hpos]; exact idxT_col0 pos b s r
  have hwy : wy m c ⟨(b.val * 512 + s.val) * 32 + r.val, hq⟩ = BitVec.ofNat 32 (4224 + (rowOf (pos (ix4 b s r (1 : Fin 2)))).val) := by
    show (V m c main_v38 : IVec S262144x2 32) _ = _
    rw [V_v38, hpos]; exact idxT_col1 pos b s r
  generalize rowOf (pos (ix4 b s r (0 : Fin 2))) = ρx at hwx ⊢
  generalize rowOf (pos (ix4 b s r (1 : Fin 2))) = ρy at hwy ⊢
  have hρx := ρx.isLt; have hρy := ρy.isLt
  have hxn : (wx m c ⟨(b.val * 512 + s.val) * 32 + r.val, hq⟩).toNat = ρx.val := by
    rw [hwx, BitVec.toNat_ofNat]; omega
  have hyn : (wy m c ⟨(b.val * 512 + s.val) * 32 + r.val, hq⟩).toNat = 4224 + ρy.val := by
    rw [hwy, BitVec.toNat_ofNat]; omega
  -- the six steps in closed form
  have htot := total (colFn (hiArr m c) d) (colFn (loArr m c) d) (wx m c ⟨(b.val * 512 + s.val) * 32 + r.val, hq⟩)
    (wy m c ⟨(b.val * 512 + s.val) * 32 + r.val, hq⟩) (by omega) (by omega) (by omega)
  have hpart : part m c ⟨(b.val * 512 + s.val) * 32 + r.val, hq⟩ d 6 = _ := htot
  rw [hpart, hxn, hyn]
  -- the four table entries
  have hH : ∀ n (hn : n < 8448), colFn (hiArr m c) d n = hiT f tx ty (ix2 (⟨n, hn⟩ : Fin 8448) d) := by
    intro n hn
    unfold colFn; rw [dif_pos hn]
    show (V m c main_v22 : FVec Ideal S8448x128 .bf16) _ = _
    rw [V_v22, hfx, htx, hty]
  have hL : ∀ n (hn : n < 8448), colFn (loArr m c) d n = hiT f tx ty (ix2 (⟨n, hn⟩ : Fin 8448) d) - hiT f tx ty (ix2 (⟨n, hn⟩ : Fin 8448) d) := by
    intro n hn
    unfold colFn; rw [dif_pos hn]
    show (V m c main_v25 : FVec Ideal S8448x128 .bf16) _ = _
    rw [V_v25, hfx, htx, hty, loT_apply]
  rw [hH ρx.val (by omega), hL ρx.val (by omega), hH (4224 + ρy.val) (by omega), hL (4224 + ρy.val) (by omega),
    hiT_top f tx ty ρx d, hiT_bot f tx ty ρy d]
  by_cases hd : d.val < 64
  · rw [dif_pos hd, dif_pos hd, dif_pos hd]
    exact combine_left (zero_add_sum2_ne_top _ fun k => tab_ne_top f tx hf hx _)
  · rw [dif_neg hd, dif_neg hd, dif_neg hd]
    exact combine_right (zero_add_sum2_ne_top _ fun k => tab_ne_top f ty hf hy _)

end Cert.KernelIdeal.KValue

end
-- ==== Proof.LibGatherRows4.lean ====
/-
  A row lookup over a rank-3 array of positions, read at an index.

  What `x[idx]` of a table `x : [N, K]` at an integer array `idx : [A, B, C]` lowers to is a `stablehlo.gather`
  of the table at the start indices `[A, B, C, 1]` (one index vector of length one per position) with offset
  axis 3, collapsed axis 0, start index map `[0]`, index vector axis 3 and slices `[1, K]`: result element
  `(a, b, c, j)` is column `j` of the row whose number is the start index `idx[a, b, c, 0]` read as a signed
  integer and clamped into `[0, N − 1]`.
-/
import Idealize.ShloMosaic.Lib.ValueIdx

noncomputable section

namespace Cert.PairGather.GatherRows4

open Idealize.ShloMosaic Idealize.ShloMosaic.ValueIdx

variable {α : Type}

/-- Those dimension numbers for a table `[N, K]`, start indices `[A, B, C, 1]` and result `[A, B, C, K]`; their
    conditions `wf` are decided on a program's literal shapes. -/
abbrev rowsDims (N K A B C : Nat)
    (wf : GatherDims.WF ⟨2, ![N, K]⟩ ⟨4, ![A, B, C, 1]⟩ ⟨4, ![A, B, C, K]⟩ [3] [0] [] [0] [] 3 ![1, K]) :
    GatherDims ⟨2, ![N, K]⟩ ⟨4, ![A, B, C, 1]⟩ ⟨4, ![A, B, C, K]⟩ where
  offsetDims := [3]
  collapsedSliceDims := [0]
  operandBatchingDims := []
  startIndicesBatchingDims := []
  startIndexMap := [0]
  indexVectorDim := 3
  sliceSizes := ![1, K]
  wf := wf

/-- THE ROW LOOKUP READ AT `(a, b, c, j)`: the table at column `j` of the row the start index `idx[a, b, c, 0]`
    names, read signed and clamped into `[0, N − 1]`. On the row axis the operand coordinate is the clamped start
    alone (the axis is collapsed, so it has no offset, and there are no batching axes); on the column axis the
    start is `0` (the start index map does not name it) and the offset is the result's coordinate on its one
    offset axis. -/
theorem gather_rows_apply {N K A B C w : Nat} (hN : 0 < N)
    (wf : GatherDims.WF ⟨2, ![N, K]⟩ ⟨4, ![A, B, C, 1]⟩ ⟨4, ![A, B, C, K]⟩ [3] [0] [] [0] [] 3 ![1, K])
    (x : (⟨2, ![N, K]⟩ : Shape).Idx → α) (idx : IVec ⟨4, ![A, B, C, 1]⟩ w)
    (a : Fin A) (b : Fin B) (c : Fin C) (j : Fin K) :
    Host.gather (rowsDims N K A B C wf) x idx (ix4 a b c j)
      = x (ix2 ⟨min (idx (ix4 a b c (0 : Fin 1))).toInt.toNat (N - 1), by omega⟩ j) := by
  unfold Host.gather
  congr 1
  funext e
  refine Fin.ext ?_
  match e with
  | ⟨0, _⟩ =>
    show (rowsDims N K A B C wf).start (ix4 a b c j) idx 0 + (rowsDims N K A B C wf).batchCoord (ix4 a b c j) 0
        + (rowsDims N K A B C wf).offCoord (ix4 a b c j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N K A B C wf).startIndexMap from List.mem_singleton.mpr rfl)]
    have hsi : (rowsDims N K A B C wf).siIdx (ix4 a b c j) ⟨List.idxOf (0 : Fin 2) (rowsDims N K A B C wf).startIndexMap,
        List.idxOf_lt_length_iff.2 (List.mem_singleton.mpr rfl)⟩ = ix4 a b c (0 : Fin 1) := by
      funext g; refine Fin.ext ?_
      match g with
      | ⟨0, _⟩ => rfl
      | ⟨1, _⟩ => rfl
      | ⟨2, _⟩ => rfl
      | ⟨3, _⟩ => rfl
    rw [hsi]
    rfl
  | ⟨1, _⟩ =>
    show (rowsDims N K A B C wf).start (ix4 a b c j) idx 1 + (rowsDims N K A B C wf).batchCoord (ix4 a b c j) 1
        + (rowsDims N K A B C wf).offCoord (ix4 a b c j) 1 = j.val
    have hk : (1 : Fin 2) ∈ (rowsDims N K A B C wf).sKept := by
      rw [GatherDims.mem_sKept]; exact ⟨(by decide : (1 : Fin 2) ∉ [(0 : Fin 2)]), List.not_mem_nil⟩
    rw [GatherDims.batchCoord_eq_zero _ _ _ List.not_mem_nil]
    unfold GatherDims.start GatherDims.offCoord
    rw [dif_neg (show (1 : Fin 2) ∉ (rowsDims N K A B C wf).startIndexMap from (by decide : (1 : Fin 2) ∉ [(0 : Fin 2)])), dif_pos hk]
    simp only [Nat.add_zero, Nat.zero_add]
    rfl

end Cert.PairGather.GatherRows4

end
-- ==== Proof.RefValue.lean ====
/-
  The reference's result, read at an index: it is the common value `G` of the positions and the two scaled tables.
-/
import proofs.«428704_j21706764714522_3_alg».proof.Proof.RefRunP
import proofs.«428704_j21706764714522_3_alg».proof.Proof.RefReadP
import proofs.«428704_j21706764714522_3_alg».proof.Proof.Spec
import proofs.«428704_j21706764714522_3_alg».proof.Proof.LibGatherRows4
import Idealize.ShloMosaic.Lib.Affine

set_option maxRecDepth 16384

noncomputable section

namespace Cert.ReferenceIdeal.RefValue

open Cert.ReferenceIdeal Cert.ReferenceIdeal.Gen Cert.ReferenceIdeal.ReadP Cert.PairGather
open Idealize.ShloMosaic Idealize.ShloMosaic.TcCoe Idealize.ShloMosaic.ValueIdx Idealize.SL.Sem

/-! ### The row a position word names, as the program computes it

The program turns a position word `p` into a start index in two steps: a negative word becomes `1`; then a
word that is still negative would have the table's height added (none is: the first step left none), and the
lookup clamps the signed value into `[0, 4105]`. -/

/-- A word that is not negative as a signed integer has its unsigned value as its signed one. -/
theorem toInt_toNat_of_nonneg (p : BitVec 32) (h : ¬ p.toInt < 0) : p.toInt.toNat = p.toNat := by
  rw [BitVec.toInt_eq_toNat_cond] at h ⊢
  have := p.isLt
  split at h <;> split <;> omega

/-- The clamped start index of a position word is the row the word names. -/
theorem start_row (p : BitVec 32) :
    min (Scalar.select (IntOp.cmpi .slt (Scalar.select (IntOp.cmpi .slt p 0#32) 1#32 p) 0#32)
        (IntOp.addi (Scalar.select (IntOp.cmpi .slt p 0#32) 1#32 p) 4106#32)
        (Scalar.select (IntOp.cmpi .slt p 0#32) 1#32 p)).toInt.toNat (4106 - 1) = (rowOf p).val := by
  by_cases hp : p.toInt < 0
  · have c1 : IntOp.cmpi .slt p 0#32 = 1#1 := IntOp.cmpi_slt.2 (by simpa using hp)
    have c2 : IntOp.cmpi .slt (1#32) 0#32 = 0#1 := eq_zero_of_ne_one (fun h => by
      have := IntOp.cmpi_slt.1 h; simp at this)
    rw [c1, select_one, c2, select_zero]
    unfold rowOf; rw [if_pos hp]
    decide
  · have c1 : IntOp.cmpi .slt p 0#32 = 0#1 := eq_zero_of_ne_one (fun h => hp (by simpa using IntOp.cmpi_slt.1 h))
    rw [c1, select_zero, c1, select_zero]
    unfold rowOf; rw [if_neg hp, toInt_toNat_of_nonneg p hp]

/-! ### The start indices at a position -/

/-- The first select at `(b, s, r, c)`: a negative word becomes `1`. -/
theorem v2_apply (x0 : (⟨S16x512x32x2, .i32⟩ : BufTy).Contents (Elt Ideal))
    (b : Fin 16) (s : Fin 512) (r : Fin 32) (c : Fin 2) :
    val_main_v2 (F := Ideal) x0 (ix4 b s r c)
      = Scalar.select (IntOp.cmpi .slt (x0 (ix4 b s r c)) 0#32) 1#32 (x0 (ix4 b s r c)) := by
  rw [val_main_v2_apply, val_main_v1_apply, val_main_v0_apply, val_main_c_apply, val_main_call0_v1_apply,
    val_main_call0_v0_apply, val_main_c_0_apply]

/-- The first word's slice, reshaped: at `(b, s, r)` it is the first select at `(b, s, r, 0)`. -/
theorem v4_apply (x0 : (⟨S16x512x32x2, .i32⟩ : BufTy).Contents (Elt Ideal)) (b : Fin 16) (s : Fin 512) (r : Fin 32) :
    val_main_v4 (F := Ideal) x0 (ix3 b s r) = val_main_v2 (F := Ideal) x0 (ix4 b s r (0 : Fin 2)) := by
  rw [val_main_v4_apply, val_main_v3_apply]
  refine congrArg (val_main_v2 (F := Ideal) x0) ?_
  funext a
  refine Fin.ext ?_
  have hb := b.isLt; have hs := s.isLt; have hr := r.isLt
  match a with
  | ⟨0, _⟩ => show ((b.val * 512 + s.val) * 32 + r.val) / 16384 = b.val; omega
  | ⟨1, _⟩ => show ((b.val * 512 + s.val) * 32 + r.val) / 32 % 512 = s.val; omega
  | ⟨2, _⟩ => show ((b.val * 512 + s.val) * 32 + r.val) / 1 % 32 = r.val; omega
  | ⟨3, _⟩ => rfl

/-- The second word's slice, reshaped: at `(b, s, r)` it is the first select at `(b, s, r, 1)`. -/
theorem v19_apply (x0 : (⟨S16x512x32x2, .i32⟩ : BufTy).Contents (Elt Ideal)) (b : Fin 16) (s : Fin 512) (r : Fin 32) :
    val_main_v19 (F := Ideal) x0 (ix3 b s r) = val_main_v2 (F := Ideal) x0 (ix4 b s r (1 : Fin 2)) := by
  rw [val_main_v19_apply, val_main_v18_apply]
  refine congrArg (val_main_v2 (F := Ideal) x0) ?_
  funext a
  refine Fin.ext ?_
  have hb := b.isLt; have hs := s.isLt; have hr := r.isLt
  match a with
  | ⟨0, _⟩ => show ((b.val * 512 + s.val) * 32 + r.val) / 16384 = b.val; omega
  | ⟨1, _⟩ => show ((b.val * 512 + s.val) * 32 + r.val) / 32 % 512 = s.val; omega
  | ⟨2, _⟩ => show ((b.val * 512 + s.val) * 32 + r.val) / 1 % 32 = r.val; omega
  | ⟨3, _⟩ => rfl

/-- The first lookup's start index at `(b, s, r)`, clamped, is the row the position's first word names. -/
theorem start16 (x0 : (⟨S16x512x32x2, .i32⟩ : BufTy).Contents (Elt Ideal)) (b : Fin 16) (s : Fin 512) (r : Fin 32) :
    min (val_main_v16 (F := Ideal) x0 (ix4 b s r (0 : Fin 1))).toInt.toNat (4106 - 1)
      = (rowOf (x0 (ix4 b s r (0 : Fin 2)))).val := by
  have e : idx_main_v16 (ix4 b s r (0 : Fin 1)) = ix3 b s r := by
    funext a; refine Fin.ext ?_
    match a with
    | ⟨0, _⟩ => rfl
    | ⟨1, _⟩ => rfl
    | ⟨2, _⟩ => rfl
  rw [val_main_v16_apply, e, val_main_v15_apply, val_main_v12_apply, val_main_v14_apply, val_main_v11_apply,
    val_main_c_2_apply, val_main_v13_apply, val_main_c_3_apply, v4_apply, v2_apply]
  exact start_row _

/-- The second lookup's start index at `(b, s, r)`, clamped, is the row the position's second word names. -/
theorem start31 (x0 : (⟨S16x512x32x2, .i32⟩ : BufTy).Contents (Elt Ideal)) (b : Fin 16) (s : Fin 512) (r : Fin 32) :
    min (val_main_v31 (F := Ideal) x0 (ix4 b s r (0 : Fin 1))).toInt.toNat (4106 - 1)
      = (rowOf (x0 (ix4 b s r (1 : Fin 2)))).val := by
  have e : idx_main_v31 (ix4 b s r (0 : Fin 1)) = ix3 b s r := by
    funext a; refine Fin.ext ?_
    match a with
    | ⟨0, _⟩ => rfl
    | ⟨1, _⟩ => rfl
    | ⟨2, _⟩ => rfl
  rw [val_main_v31_apply, e, val_main_v30_apply, val_main_v27_apply, val_main_v29_apply, val_main_v26_apply,
    val_main_c_6_apply, val_main_v28_apply, val_main_c_7_apply, v19_apply, v2_apply]
  exact start_row _

/-! ### The two lookups at an index -/

/-- The printed lookup's dimension numbers are the row lookup's. -/
theorem gather_eq :
    gather_S4106x128_S16x512x32x1_S16x512x32x128_3_0_n_n_0_3_1128
      = GatherRows4.rowsDims 4106 128 16 512 32 gather_S4106x128_S16x512x32x1_S16x512x32x128_3_0_n_n_0_3_1128_wf := rfl

/-- The first lookup at `(b, s, r, e)`: the first scaled table at column `e` of the row the first word names. -/
theorem v17_apply (x0 : (⟨S16x512x32x2, .i32⟩ : BufTy).Contents (Elt Ideal))
    (x1 x2 : (⟨S4106x128, .f32⟩ : BufTy).Contents (Elt Ideal)) (b : Fin 16) (s : Fin 512) (r : Fin 32) (e : Fin 128) :
    val_main_v17 (F := Ideal) x0 x1 x2 (ix4 b s r e)
      = val_main_v10 (F := Ideal) x1 x2 (ix2 (rowOf (x0 (ix4 b s r (0 : Fin 2)))) e) := by
  unfold val_main_v17
  generalize val_main_v10 (F := Ideal) x1 x2 = T
  rw [gather_eq]
  refine (GatherRows4.gather_rows_apply (by decide) _ T (val_main_v16 (F := Ideal) x0) b s r e).trans ?_
  exact congrArg (fun q : Fin 4106 => T (ix2 q e)) (Fin.ext (start16 x0 b s r))

/-- The second lookup at `(b, s, r, e)`: the second scaled table at column `e` of the row the second word names. -/
theorem v32_apply (x0 : (⟨S16x512x32x2, .i32⟩ : BufTy).Contents (Elt Ideal))
    (x1 x3 : (⟨S4106x128, .f32⟩ : BufTy).Contents (Elt Ideal)) (b : Fin 16) (s : Fin 512) (r : Fin 32) (e : Fin 128) :
    val_main_v32 (F := Ideal) x0 x1 x3 (ix4 b s r e)
      = val_main_v25 (F := Ideal) x1 x3 (ix2 (rowOf (x0 (ix4 b s r (1 : Fin 2)))) e) := by
  unfold val_main_v32
  generalize val_main_v25 (F := Ideal) x1 x3 = T
  rw [gather_eq]
  refine (GatherRows4.gather_rows_apply (by decide) _ T (val_main_v31 (F := Ideal) x0) b s r e).trans ?_
  exact congrArg (fun q : Fin 4106 => T (ix2 q e)) (Fin.ext (start31 x0 b s r))

/-! ### The joined rows and their pairing -/

/-- The joined rows at a column below 128 are the first lookup's. -/
theorem v33_left (x0 : (⟨S16x512x32x2, .i32⟩ : BufTy).Contents (Elt Ideal))
    (x1 x2 x3 : (⟨S4106x128, .f32⟩ : BufTy).Contents (Elt Ideal)) (b : Fin 16) (s : Fin 512) (r : Fin 32)
    (e : Fin 256) (h : e.val < 128) :
    val_main_v33 (F := Ideal) x0 x1 x2 x3 (ix4 b s r e)
      = val_main_v17 (F := Ideal) x0 x1 x2 (ix4 b s r (⟨e.val, h⟩ : Fin 128)) := by
  unfold val_main_v33
  generalize val_main_v17 (F := Ideal) x0 x1 x2 = y1
  generalize val_main_v32 (F := Ideal) x0 x1 x3 = y2
  refine concatenate_pair_apply_left (t := S16x512x32x256) (s₁ := S16x512x32x128) (s₂ := S16x512x32x128) (3 : Fin 4) y1 y2
    concatenates_S16x512x32x128_S16x512x32x128_S16x512x32x256_d3 (ix4 b s r e) rfl
    (ix4 b s r (⟨e.val, h⟩ : Fin 128)) (fun a => ?_)
  match a with
  | ⟨0, _⟩ => rfl
  | ⟨1, _⟩ => rfl
  | ⟨2, _⟩ => rfl
  | ⟨3, _⟩ => rfl

/-- The joined rows at a column from 128 on are the second lookup's, 128 columns back. -/
theorem v33_right (x0 : (⟨S16x512x32x2, .i32⟩ : BufTy).Contents (Elt Ideal))
    (x1 x2 x3 : (⟨S4106x128, .f32⟩ : BufTy).Contents (Elt Ideal)) (b : Fin 16) (s : Fin 512) (r : Fin 32)
    (e : Fin 256) (h : 128 ≤ e.val) :
    val_main_v33 (F := Ideal) x0 x1 x2 x3 (ix4 b s r e)
      = val_main_v32 (F := Ideal) x0 x1 x3 (ix4 b s r (⟨e.val - 128, by have := e.isLt; omega⟩ : Fin 128)) := by
  unfold val_main_v33
  generalize val_main_v17 (F := Ideal) x0 x1 x2 = y1
  generalize val_main_v32 (F := Ideal) x0 x1 x3 = y2
  refine concatenate_pair_apply_right (t := S16x512x32x256) (s₁ := S16x512x32x128) (s₂ := S16x512x32x128) (3 : Fin 4) y1 y2
    concatenates_S16x512x32x128_S16x512x32x128_S16x512x32x256_d3 (ix4 b s r e) rfl rfl
    (ix4 b s r (⟨e.val - 128, by have := e.isLt; omega⟩ : Fin 128)) (fun a ha => ?_) ?_
  · match a with
    | ⟨0, _⟩ => rfl
    | ⟨1, _⟩ => rfl
    | ⟨2, _⟩ => rfl
    | ⟨3, _⟩ => exact absurd rfl ha
  · show e.val - 128 + 128 = e.val
    omega

/-- The pairing reshape: element `(b, s, r, d, k)` is the joined rows' element `(b, s, r, 2 d + k)`. -/
theorem v34_apply (x0 : (⟨S16x512x32x2, .i32⟩ : BufTy).Contents (Elt Ideal))
    (x1 x2 x3 : (⟨S4106x128, .f32⟩ : BufTy).Contents (Elt Ideal)) (b : Fin 16) (s : Fin 512) (r : Fin 32)
    (d : Fin 128) (k : Fin 2) :
    val_main_v34 (F := Ideal) x0 x1 x2 x3 (idx_main_v35 (ix4 b s r d) k)
      = val_main_v33 (F := Ideal) x0 x1 x2 x3
          (ix4 b s r (⟨2 * d.val + k.val, by have := d.isLt; have := k.isLt; omega⟩ : Fin 256)) := by
  rw [val_main_v34_apply]
  refine congrArg (val_main_v33 (F := Ideal) x0 x1 x2 x3) ?_
  funext a
  refine Fin.ext ?_
  have hb := b.isLt; have hs := s.isLt; have hr := r.isLt; have hd := d.isLt; have hk := k.isLt
  match a with
  | ⟨0, _⟩ =>
    show ((((b.val * 512 + s.val) * 32 + r.val) * 128 + d.val) * 2 + k.val) / 4194304 = b.val; omega
  | ⟨1, _⟩ =>
    show ((((b.val * 512 + s.val) * 32 + r.val) * 128 + d.val) * 2 + k.val) / 8192 % 512 = s.val; omega
  | ⟨2, _⟩ =>
    show ((((b.val * 512 + s.val) * 32 + r.val) * 128 + d.val) * 2 + k.val) / 256 % 32 = r.val; omega
  | ⟨3, _⟩ =>
    show ((((b.val * 512 + s.val) * 32 + r.val) * 128 + d.val) * 2 + k.val) % 256 = 2 * d.val + k.val; omega

/-- THE REFERENCE IS `G`: its last stage, as a function of the four arguments, is the common value over the
    positions and the two scaled tables (the stages `val_main_v10`, `val_main_v25`). -/
theorem ref_value (x0 : (⟨S16x512x32x2, .i32⟩ : BufTy).Contents (Elt Ideal)) (x1 x2 x3 : (⟨S4106x128, .f32⟩ : BufTy).Contents (Elt Ideal)) :
    val_main_v35 (F := Ideal) x0 x1 x2 x3 = G x0 (val_main_v10 (F := Ideal) x1 x2) (val_main_v25 (F := Ideal) x1 x3) := by
  funext i
  obtain ⟨b, s, r, d, rfl⟩ : ∃ (b : Fin 16) (s : Fin 512) (r : Fin 32) (d : Fin 128), i = ix4 b s r d :=
    ⟨i 0, i 1, i 2, i 3, eq_ix4 i⟩
  -- the sum starts from the constant zero
  have h0 : (val_main_cst_8 (F := Ideal) (Shape.Idx.first h_S_) : EReal) = (0 : EReal) := by
    rw [val_main_cst_8_apply]; exact Ideal.ofBits_zero_f32
  rw [val_main_v35_apply, h0, G_apply]
  unfold Gat
  by_cases hd : d.val < 64
  · -- columns `2 d`, `2 d + 1` lie in the first lookup's half
    rw [dif_pos hd]
    refine congrArg (0 + ·) (Finset.sum_congr rfl fun k _ => ?_)
    have hk := k.isLt
    exact (v34_apply x0 x1 x2 x3 b s r d k).trans
      ((v33_left x0 x1 x2 x3 b s r _ (by show 2 * d.val + k.val < 128; omega)).trans
        (v17_apply x0 x1 x2 b s r _))
  · -- columns `2 d`, `2 d + 1` lie in the second lookup's half, at `2 (d − 64)`, `2 (d − 64) + 1` there
    rw [dif_neg hd]
    refine congrArg (0 + ·) (Finset.sum_congr rfl fun k _ => ?_)
    have hk := k.isLt
    have hdlt := d.isLt
    refine (v34_apply x0 x1 x2 x3 b s r d k).trans
      ((v33_right x0 x1 x2 x3 b s r _ (by show 128 ≤ 2 * d.val + k.val; omega)).trans
        ((v32_apply x0 x1 x3 b s r _).trans ?_))
    refine congrArg (fun q : Fin 128 => val_main_v25 (F := Ideal) x1 x3 (ix2 (rowOf (x0 (ix4 b s r (1 : Fin 2)))) q))
      (Fin.ext ?_)
    show 2 * d.val + k.val - 128 = 2 * (d.val - 64) + k.val
    omega

end Cert.ReferenceIdeal.RefValue

end
-- ==== Proof.lean ====
/-
  The certificate of the one-hot gather kernel against its jnp reference.

  The reference looks up, for every position, one row of each of two scaled tables  0.1 · (t / max t) + f,  lays the
  two rows side by side and sums adjacent column pairs. The kernel folds the pair sums into the tables, pads and
  stacks them into one combined table, splits it into a head and a residual part, and looks rows up by a one-hot
  matrix product accumulated over six contraction steps, the head and the residual added one after the other.
  At the extended reals a change of float format is the identity, so the head is the table and the residual is
  x − x; a one-hot row selects exactly one table row whatever the other rows hold, since 0 · x = 0 for every
  extended real x; and  x + (x − x) = x  unless x = +∞, which the precondition excludes: an entry of a table is at
  most the table's maximum, so its quotient by the maximum is never +∞ (it is −∞ where the maximum is 0).
  Both programs clamp a position past the table's end to the last row and send a negative one to row 1.

  The three frames: the two kernel programs' from their pipelines' proof data and the body's three control cases;
  the reference's from its run. The idealization rewrote nothing, so `preserves` is trivial.
-/
import proofs.«428704_j21706764714522_3_alg».proof.Defs
import proofs.«428704_j21706764714522_3_alg».proof.Proof.Gen.Kernel
import proofs.«428704_j21706764714522_3_alg».proof.Proof.Gen.KernelIdeal
import proofs.«428704_j21706764714522_3_alg».proof.Proof.Gen.ReferenceIdeal
import proofs.«428704_j21706764714522_3_alg».proof.Proof.Gen.Pre_finite_inputs
import proofs.«428704_j21706764714522_3_alg».proof.Proof.BitsFrame
import proofs.«428704_j21706764714522_3_alg».proof.Proof.IdealFrame
import proofs.«428704_j21706764714522_3_alg».proof.Proof.IdealClosed
import proofs.«428704_j21706764714522_3_alg».proof.Proof.RefRunP
import proofs.«428704_j21706764714522_3_alg».proof.Proof.RefReadP
import proofs.«428704_j21706764714522_3_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Body.frame m ρ

theorem frame_pi : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The scaled table is one function in the two programs' texts. -/
theorem tab_eq_ref (f t : FVec Ideal Cert.KernelIdeal.S4106x128 .f32) :
    Cert.KernelIdeal.HostVal.tab f t = Cert.ReferenceIdeal.ReadP.val_main_v10 (F := Ideal) f t := rfl

theorem tab_eq_ref' (f t : FVec Ideal Cert.KernelIdeal.S4106x128 .f32) :
    Cert.KernelIdeal.HostVal.tab f t = Cert.ReferenceIdeal.ReadP.val_main_v25 (F := Ideal) f t := rfl

/-- Both programs, run from memories that agree on the arguments, end at the common value `G` of the positions
    and the two scaled tables. -/
theorem algebraic : Cert.algebraic_KernelIdeal_ReferenceIdeal := by
  intro m ρ m' ρ' hpre hagree
  refine ⟨fun c => Cert.PairGather.G (m ((c.tc : Thread Cert.KernelIdeal.nD Cert.KernelIdeal.τ).loc Cert.KernelIdeal.main_arg0))
      (Cert.KernelIdeal.HostVal.tab (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.KernelIdeal.HostVal.tab (m ((c.tc : Thread Cert.KernelIdeal.nD Cert.KernelIdeal.τ).loc Cert.KernelIdeal.main_arg1)) (m ((c.tc : Thread Cert.KernelIdeal.nD Cert.KernelIdeal.τ).loc Cert.KernelIdeal.main_arg3))), ?_, ?_⟩
  · refine (θ_run Cert.KernelIdeal.defs _ _).mono (fun _ h c => ⟨?_, ?_, ?_, ?_, ?_⟩) (Cert.KernelIdeal.Body.run_main m ρ)
    · exact (((h c).2 Cert.KernelIdeal.main_v40 (Pipeline.mem_restRefs_of Cert.KernelIdeal.main_v40 (by decide) (by decide))).trans
        (Cert.KernelIdeal.KValue.tail_v40 m c)).trans (Cert.KernelIdeal.KValue.kout_eq m hpre c)
    · exact ((h c).2 Cert.KernelIdeal.main_arg0 (Pipeline.mem_restRefs_of Cert.KernelIdeal.main_arg0 (by decide) (by decide))).trans (Cert.KernelIdeal.Gen.W_main_arg0 m (Cert.KernelIdeal.Body.dats m) c)
    · exact ((h c).2 Cert.KernelIdeal.main_arg1 (Pipeline.mem_restRefs_of Cert.KernelIdeal.main_arg1 (by decide) (by decide))).trans (Cert.KernelIdeal.Gen.W_main_arg1 m (Cert.KernelIdeal.Body.dats m) c)
    · exact ((h c).2 Cert.KernelIdeal.main_arg2 (Pipeline.mem_restRefs_of Cert.KernelIdeal.main_arg2 (by decide) (by decide))).trans (Cert.KernelIdeal.Gen.W_main_arg2 m (Cert.KernelIdeal.Body.dats m) c)
    · exact ((h c).2 Cert.KernelIdeal.main_arg3 (Pipeline.mem_restRefs_of Cert.KernelIdeal.main_arg3 (by decide) (by decide))).trans (Cert.KernelIdeal.Gen.W_main_arg3 m (Cert.KernelIdeal.Body.dats m) c)
  · refine (θ_run Cert.ReferenceIdeal.defs _ _).mono (fun _ h c => ⟨?_, (h c).2⟩) (Cert.ReferenceIdeal.ValueP.run (F := Ideal) m' ρ')
    rw [(h c).1, Cert.ReferenceIdeal.ReadP.val_main_v35_eq, Cert.ReferenceIdeal.RefValue.ref_value,
      (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
